-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x640000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S5000x128 : Shape := ⟨2, ![5000, 128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 73
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x640000, .i32⟩
  | .hbm, ⟨9, _⟩ => ⟨S640000, .i32⟩
  | .hbm, ⟨10, _⟩ => ⟨S740000, .i32⟩
  | .hbm, ⟨11, _⟩ => ⟨S1x640000, .i32⟩
  | .hbm, ⟨12, _⟩ => ⟨S640000, .i32⟩
  | .hbm, ⟨13, _⟩ => ⟨S740000, .i32⟩
  | .hbm, ⟨14, _⟩ => ⟨S_, .f32⟩
  | .hbm, ⟨15, _⟩ => ⟨S740000, .f32⟩
  | .hbm, ⟨16, _⟩ => ⟨S_, .f32⟩
  | .hbm, ⟨17, _⟩ => ⟨S100000, .f32⟩
  | .hbm, ⟨18, _⟩ => ⟨S740000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S740000, .i32⟩
  | .hbm, ⟨23, _⟩ => ⟨S740000, .i1⟩
  | .hbm, ⟨24, _⟩ => ⟨S_, .i32⟩
  | .hbm, ⟨25, _⟩ => ⟨S740000, .i32⟩
  | .hbm, ⟨26, _⟩ => ⟨S740000, .i32⟩
  | .hbm, ⟨27, _⟩ => ⟨S740000, .i32⟩
  | .hbm, ⟨28, _⟩ => ⟨S740000x1, .i32⟩
  | .hbm, ⟨29, _⟩ => ⟨S740000, .f32⟩
  | .hbm, ⟨30, _⟩ => ⟨S_, .i32⟩
  | .hbm, ⟨31, _⟩ => ⟨S740000, .i32⟩
  | .hbm, ⟨32, _⟩ => ⟨S740000, .i1⟩
  | .hbm, ⟨33, _⟩ => ⟨S_, .i32⟩
  | .hbm, ⟨34, _⟩ => ⟨S740000, .i32⟩
  | .hbm, ⟨35, _⟩ => ⟨S740000, .i32⟩
  | .hbm, ⟨36, _⟩ => ⟨S740000, .i32⟩
  | .hbm, ⟨37, _⟩ => ⟨S740000x1, .i32⟩
  | .hbm, ⟨38, _⟩ => ⟨S740000, .f32⟩
  | .hbm, ⟨39, _⟩ => ⟨S740000, .f32⟩
  | .hbm, ⟨40, _⟩ => ⟨S_, .i32⟩
  | .hbm, ⟨41, _⟩ => ⟨S740000, .i32⟩
  | .hbm, ⟨42, _⟩ => ⟨S740000, .i1⟩
  | .hbm, ⟨43, _⟩ => ⟨S_, .i32⟩
  | .hbm, ⟨44, _⟩ => ⟨S740000, .i32⟩
  | .hbm, ⟨45, _⟩ => ⟨S740000, .i32⟩
  | .hbm, ⟨46, _⟩ => ⟨S740000, .i32⟩
  | .hbm, ⟨47, _⟩ => ⟨S740000x1, .i32⟩
  | .hbm, ⟨48, _⟩ => ⟨S740000x128, .f32⟩
  | .hbm, ⟨49, _⟩ => ⟨S740000x1, .f32⟩
  | .hbm, ⟨50, _⟩ => ⟨S740000x128, .f32⟩
  | .hbm, ⟨51, _⟩ => ⟨S740000x128, .f32⟩
  | .hbm, ⟨52, _⟩ => ⟨S_, .f32⟩
  | .hbm, ⟨53, _⟩ => ⟨S100000x128, .f32⟩
  | .hbm, ⟨54, _⟩ => ⟨S740000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  dot_S5000x128_S128x128_S5000x128_1_0_0_1_n_n_wf : DotDims.WF S5000x128 S128x128 S5000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44_0) S5000x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44_1) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_2) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x640000, .i32⟩
  | .hbm, ⟨8, _⟩ => ⟨S640000, .i32⟩
  | .hbm, ⟨9, _⟩ => ⟨S740000, .i32⟩
  | .hbm, ⟨10, _⟩ => ⟨S1x640000, .i32⟩
  | .hbm, ⟨11, _⟩ => ⟨S640000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S740000, .i32⟩
  | .hbm, ⟨22, _⟩ => ⟨S740000, .i1⟩
  | .hbm, ⟨23, _⟩ => ⟨S_, .i32⟩
  | .hbm, ⟨24, _⟩ => ⟨S740000, .i32⟩
  | .hbm, ⟨25, _⟩ => ⟨S740000, .i32⟩
  | .hbm, ⟨26, _⟩ => ⟨S740000, .i32⟩
  | .hbm, ⟨27, _⟩ => ⟨S740000x1, .i32⟩
  | .hbm, ⟨28, _⟩ => ⟨S740000, .f32⟩
  | .hbm, ⟨29, _⟩ => ⟨S_, .i32⟩
  | .hbm, ⟨30, _⟩ => ⟨S740000, .i32⟩
  | .hbm, ⟨31, _⟩ => ⟨S740000, .i1⟩
  | .hbm, ⟨32, _⟩ => ⟨S_, .i32⟩
  | .hbm, ⟨33, _⟩ => ⟨S740000, .i32⟩
  | .hbm, ⟨34, _⟩ => ⟨S740000, .i32⟩
  | .hbm, ⟨35, _⟩ => ⟨S740000, .i32⟩
  | .hbm, ⟨36, _⟩ => ⟨S740000x1, .i32⟩
  | .hbm, ⟨37, _⟩ => ⟨S740000, .f32⟩
  | .hbm, ⟨38, _⟩ => ⟨S740000, .f32⟩
  | .hbm, ⟨39, _⟩ => ⟨S100000x128, .f32⟩
  | .hbm, ⟨40, _⟩ => ⟨S_, .i32⟩
  | .hbm, ⟨41, _⟩ => ⟨S740000, .i32⟩
  | .hbm, ⟨42, _⟩ => ⟨S740000, .i1⟩
  | .hbm, ⟨43, _⟩ => ⟨S_, .i32⟩
  | .hbm, ⟨44, _⟩ => ⟨S740000, .i32⟩
  | .hbm, ⟨45, _⟩ => ⟨S740000, .i32⟩
  | .hbm, ⟨46, _⟩ => ⟨S740000, .i32⟩
  | .hbm, ⟨47, _⟩ => ⟨S740000x1, .i32⟩
  | .hbm, ⟨48, _⟩ => ⟨S740000x128, .f32⟩
  | .hbm, ⟨49, _⟩ => ⟨S740000x1, .f32⟩
  | .hbm, ⟨50, _⟩ => ⟨S740000x128, .f32⟩
  | .hbm, ⟨51, _⟩ => ⟨S740000x128, .f32⟩
  | .hbm, ⟨52, _⟩ => ⟨S_, .f32⟩
  | .hbm, ⟨53, _⟩ => ⟨S100000x128, .f32⟩
  | .hbm, ⟨54, _⟩ => ⟨S740000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S1x128, .f32⟩
  | .hbm, ⟨104, _⟩ => ⟨S100000x128, .f32⟩
  | .hbm, ⟨105, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_cst_3 : Ref sig .tc := ⟨.hbm, 84, rfl⟩
abbrev main_call1_v12 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_10 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100000x128_S128x128_S100000x128_1_0_0_1_n_n_wf : DotDims.WF S100000x128 S128x128 S100000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

class Facts : Prop extends Facts₀ where

variable [Facts]
-- ==== Proof.Spec.lean ====
/-
  The mathematics both programs compute, stated once over literal shapes.

  A graph-convolution block on 100000 nodes with 128 features: the node features are multiplied by the weight
  matrix (`hmm`); every edge (640000 given ones and one self-loop per node) carries its source's row scaled by
  `deg(src)^(-1/2) · deg(dst)^(-1/2)` into its destination's row, and the bias is added (`aggF`: the degree is a
  scatter-add of ones over the destinations, the scaling two gathers of its inverse square root, the message a
  gather of rows, the aggregation a scatter-add of the messages); the result is clamped below at zero (`relu`);
  and each feature column is normalised by its mean and variance over the nodes, scaled and shifted (`outK`,
  `outR`).  The two programs differ only in how the variance is formed: `outK` takes the mean of the squares
  minus the square of the mean, `outR` the mean of the squared deviations.  On finite entries these are one number.
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S100000 : Shape := ⟨1, ![100000]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

/-! ## The shape relations the operations take -/

theorem slices_row0 : S2x640000.Slices ![0, 0] S1x640000 := by decide
theorem slices_row1 : S2x640000.Slices ![1, 0] S1x640000 := by decide
theorem casts_row : S1x640000.ShapeCasts S640000 := by decide
theorem concat_edges : Shape.Concatenates [S640000, S100000] S740000 0 := by decide
theorem bc_S_S740000 : S_.BroadcastsInDim S740000 (![] : Fin 0 → Fin S740000.rank) := by decide
theorem bc_S_S100000 : S_.BroadcastsInDim S100000 (![] : Fin 0 → Fin S100000.rank) := by decide
theorem bc_col : S740000.BroadcastsInDim S740000x1 (![0] : Fin 1 → Fin S740000x1.rank) := by decide
theorem bc_wide : S740000x1.BroadcastsInDim S740000x128 (![0, 1] : Fin 2 → Fin S740000x128.rank) := by decide
theorem bc_S_SN : S_.BroadcastsInDim S100000x128 (![] : Fin 0 → Fin S100000x128.rank) := by decide
theorem bc_row : S128.BroadcastsInDim S1x128 (![1] : Fin 1 → Fin S1x128.rank) := by decide
theorem bc_rows : S1x128.BroadcastsInDim S100000x128 (![0, 1] : Fin 2 → Fin S100000x128.rank) := by decide
theorem scat1_wf : ScatterDims.WF S100000 S740000x1 S740000 [] [0] [0] 1 := by decide
theorem gath1_wf : GatherDims.WF S100000 S740000x1 S740000 [] [0] [] [0] [] 1 ![1] := by decide
theorem gath2_wf : GatherDims.WF S100000x128 S740000x1 S740000x128 [1] [0] [] [0] [] 1 ![1, 128] := by decide
theorem scat2_wf : ScatterDims.WF S100000x128 S740000x1 S740000x128 [1] [0] [0] 1 := by decide

/-- The degree count's scatter: one index per update, no window. -/
def scat1 : ScatterDims S100000 S740000x1 S740000 where
  updateWindowDims := []
  insertedWindowDims := [0]
  scatterDimsToOperandDims := [0]
  indexVectorDim := 1
  wf := scat1_wf
/-- The gather of one scalar per edge. -/
def gath1 : GatherDims S100000 S740000x1 S740000 where
  offsetDims := []
  collapsedSliceDims := [0]
  operandBatchingDims := []
  startIndicesBatchingDims := []
  startIndexMap := [0]
  indexVectorDim := 1
  sliceSizes := ![1]
  wf := gath1_wf
/-- The gather of one row per edge. -/
def gath2 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gath2_wf
/-- The scatter of one row per edge. -/
def scat2 : ScatterDims S100000x128 S740000x1 S740000x128 where
  updateWindowDims := [1]
  insertedWindowDims := [0]
  scatterDimsToOperandDims := [0]
  indexVectorDim := 1
  wf := scat2_wf

/-! ## The aggregation, at any float instance -/

section
variable {F : FTy → Type} [FloatOps F]

/-- The edge list's sources: row 0 of the edge array, then the self-loops `0, 1, …, 99999`. -/
def srcIdx (ei : IVec S2x640000 32) : IVec S740000 32 :=
  concatenate S740000 0 [⟨S640000, shapeCast S640000 (extractStridedSlice S1x640000 ![0, 0] ei slices_row0) casts_row⟩,
    ⟨S100000, iotaInDim S100000 32 0⟩] concat_edges
/-- The edge list's destinations: row 1 of the edge array, then the self-loops. -/
def dstIdx (ei : IVec S2x640000 32) : IVec S740000 32 :=
  concatenate S740000 0 [⟨S640000, shapeCast S640000 (extractStridedSlice S1x640000 ![1, 0] ei slices_row1) casts_row⟩,
    ⟨S100000, iotaInDim S100000 32 0⟩] concat_edges
/-- A gather's index column: a negative index counts from the end. -/
def wrapIdx (v : IVec S740000 32) : IVec S740000x1 32 :=
  broadcastInDim S740000x1 ![0] bc_col
    (select (cmpi .slt v (broadcastInDim S740000 ![] bc_S_S740000 (constantI S_ 32 0#32)))
      (addi v (broadcastInDim S740000 ![] bc_S_S740000 (constantI S_ 32 100000#32))) v)
/-- Each node's degree: the number of edges, self-loop included, that end at it. -/
def degF (ei : IVec S2x640000 32) : FVec F S100000 .f32 :=
  Host.scatterAdd scat1 (broadcastInDim S100000 ![] bc_S_S100000 (constant S_ .f32 0x00000000#32))
    (broadcastInDim S740000x1 ![0] bc_col (dstIdx ei))
    (broadcastInDim S740000 ![] bc_S_S740000 (constant S_ .f32 0x3F800000#32))
/-- Each edge's weight: the inverse square roots of its two ends' degrees, multiplied. -/
def normF (ei : IVec S2x640000 32) : FVec F S740000 .f32 :=
  mulf (Host.gather gath1 (Host.rsqrt (degF (F := F) ei)) (wrapIdx (srcIdx ei)))
    (Host.gather gath1 (Host.rsqrt (degF (F := F) ei)) (wrapIdx (dstIdx ei)))
/-- The aggregation: every edge adds its source's row, weighted, to its destination's row; then the bias. -/
def aggF (h : FVec F S100000x128 .f32) (ei : IVec S2x640000 32) (b : FVec F S128 .f32) : FVec F S100000x128 .f32 :=
  addf
    (Host.scatterAdd scat2 (broadcastInDim S100000x128 ![] bc_S_SN (constant S_ .f32 0x00000000#32))
      (broadcastInDim S740000x1 ![0] bc_col (dstIdx ei))
      (mulf (Host.gather gath2 h (wrapIdx (srcIdx ei)))
        (broadcastInDim S740000x128 ![0, 1] bc_wide (broadcastInDim S740000x1 ![0] bc_col (normF (F := F) ei)))))
    (broadcastInDim S100000x128 ![0, 1] bc_rows (broadcastInDim S1x128 ![1] bc_row b))
end

/-! ## The rest, over the extended reals -/

/-- Neither infinity. -/
def IsFin (x : EReal) : Prop := x ≠ ⊤ ∧ x ≠ ⊥

/-- The transformed features: row `i` of `x` against column `j` of `W`. -/
def hmm (x : FVec Ideal S100000x128 .f32) (W : FVec Ideal S128x128 .f32) : FVec Ideal S100000x128 .f32 :=
  fun i => ∑ k : Fin 128, x (ix2 (i 0) k) * W (ix2 k (i 1))

/-- Clamped below at zero. -/
def relu (a : FVec Ideal S100000x128 .f32) : FVec Ideal S100000x128 .f32 := fun i => max (a i) 0

/-- A feature column's sum over the nodes. -/
def colsum (r : FVec Ideal S100000x128 .f32) (j : Fin 128) : EReal := ∑ i : Fin 100000, r (ix2 i j)

/-- The node count `100000` and the variance's offset, as the programs spell them. -/
def cN : EReal := Ideal.ofBits .f32 0x47C35000#32
def cEps : EReal := Ideal.ofBits .f32 0x3727C5AC#32

/-- A column's mean. -/
def meanC (r : FVec Ideal S100000x128 .f32) (j : Fin 128) : EReal := Ideal.div (colsum r j) cN
/-- A column's variance as the mean of the squares minus the square of the mean. -/
def varK (r : FVec Ideal S100000x128 .f32) (j : Fin 128) : EReal :=
  Ideal.div (colsum (fun i => r i * r i) j) cN - meanC r j * meanC r j
/-- A column's variance as the mean of the squared deviations. -/
def varR (r : FVec Ideal S100000x128 .f32) (j : Fin 128) : EReal :=
  Ideal.div (colsum (fun i => (r i - meanC r (i 1)) * (r i - meanC r (i 1))) j) cN

/-- The normalised, scaled and shifted features, with the variance in the first form. -/
def outK (r : FVec Ideal S100000x128 .f32) (γ β : FVec Ideal S128 .f32) : FVec Ideal S100000x128 .f32 :=
  fun i => γ (ix1 (i 1)) * (r i - meanC r (i 1)) * Ideal.rsqrt (varK r (i 1) + cEps) + β (ix1 (i 1))
/-- The same with the variance in the second form. -/
def outR (r : FVec Ideal S100000x128 .f32) (γ β : FVec Ideal S128 .f32) : FVec Ideal S100000x128 .f32 :=
  fun i => γ (ix1 (i 1)) * (r i - meanC r (i 1)) * Ideal.rsqrt (varR r (i 1) + cEps) + β (ix1 (i 1))

/-- The block's result as one function of its six arguments. -/
def G (x : FVec Ideal S100000x128 .f32) (ei : IVec S2x640000 32) (W : FVec Ideal S128x128 .f32)
    (b γ β : FVec Ideal S128 .f32) : FVec Ideal S100000x128 .f32 :=
  outK (relu (aggF (F := Ideal) (hmm x W) ei b)) γ β

end Cert.Spec

end
-- ==== Proof.MathVar.lean ====
/-
  The two forms of a column's variance are one number when every entry is finite: with `N` entries of sum `s`
  and sum of squares `q`, and mean `μ = s / N`, the mean of the squared deviations `(1/N) · ∑ (rᵢ - μ)²` is
  `q / N - μ²`.  The identity is proved over the reals for any finite index set, carried to the extended reals
  through the coercion (finite entries are coerced reals, and the node count `100000` is a nonzero real, so the
  division is the product with its reciprocal), and read at the `100000` nodes of one feature column.  The
  normalised features built on either variance are then equal entry by entry.
-/
import proofs.«101147_j4887672783235_1_alg».proof.Proof.Spec
import Mathlib.Tactic.Ring
import Mathlib.Tactic.LinearCombination
import Mathlib.Tactic.NormNum
import Mathlib.Data.EReal.Basic
import Mathlib.Algebra.BigOperators.Ring.Finset

noncomputable section

open scoped BigOperators

namespace Cert.Spec

open Idealize.ShloMosaic Idealize.ShloMosaic.ValueIdx

/-- The node count the programs spell is the real `100000`. -/
theorem cN_eq : cN = ((100000 : ℝ) : EReal) := by
  unfold cN
  simp [Ideal.ofBits, Ideal.ieee, -EReal.coe_mul]; norm_num

/-- Over the reals, for any finite index set of `N` elements and `c = 1/N`: the mean of the squared deviations
    from the mean is the mean of the squares minus the square of the mean. -/
theorem real_var {ι : Type*} [Fintype ι] (f : ι → ℝ) (c : ℝ) (hc : (Fintype.card ι : ℝ) * c = 1) :
    (∑ i, (f i - (∑ k, f k) * c) * (f i - (∑ k, f k) * c)) * c
      = (∑ i, f i * f i) * c - ((∑ k, f k) * c) * ((∑ k, f k) * c) := by
  generalize hs : (∑ k, f k) = s
  have h1 : ∑ i, (f i - s * c) * (f i - s * c)
      = (∑ i, f i * f i) - 2 * (s * c) * s + (Fintype.card ι : ℝ) * ((s * c) * (s * c)) := by
    have e : ∀ i, (f i - s * c) * (f i - s * c) = f i * f i - 2 * (s * c) * f i + (s * c) * (s * c) :=
      fun i => by ring
    simp only [e]
    rw [Finset.sum_add_distrib, Finset.sum_sub_distrib, ← Finset.mul_sum, Finset.sum_const, Finset.card_univ,
      nsmul_eq_mul, hs]
  rw [h1]
  linear_combination (s * c) * (s * c) * hc

/-- The coercion of the reals into the extended reals carries a finite sum to the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A finite extended real is a coerced real. -/
theorem IsFin.exists_coe {x : EReal} (h : IsFin x) : ∃ y : ℝ, x = (y : EReal) :=
  ⟨x.toReal, (EReal.coe_toReal h.1 h.2).symm⟩

/-- On finite entries the two forms of a column's variance agree. -/
theorem varR_eq_varK (r : FVec Ideal S100000x128 .f32) (hr : ∀ i, IsFin (r i)) (j : Fin 128) :
    varR r j = varK r j := by
  choose f hf using fun i => (hr i).exists_coe
  obtain rfl : r = fun i => (f i : EReal) := funext hf
  have h0 : (100000 : ℝ) ≠ 0 := by norm_num
  have hc : (Fintype.card (Fin 100000) : ℝ) * (1 / 100000 : ℝ) = 1 := by
    rw [Fintype.card_fin]; norm_num
  have key := real_var (fun i : Fin 100000 => f (ix2 i j)) (1 / 100000 : ℝ) hc
  have keyE := congrArg (fun x : ℝ => (x : EReal)) key
  simp only [EReal.coe_sub, EReal.coe_mul, coe_sum] at keyE
  unfold varR varK meanC colsum
  rw [cN_eq]
  simp only [Ideal.div_coe h0]
  exact keyE

/-- The normalised features with the variance in either form are equal when every entry is finite. -/
theorem outR_eq_outK (r : FVec Ideal S100000x128 .f32) (γ β : FVec Ideal S128 .f32)
    (hr : ∀ i, IsFin (r i)) : outR r γ β = outK r γ β := by
  funext i
  unfold outR outK
  rw [varR_eq_varK r hr (i 1)]

end Cert.Spec

end
-- ==== Proof.AggFin.lean ====
/-
  Finiteness of the graph-convolution block's intermediate values over the extended reals.

  On finite inputs the feature product, the clamp at zero and the aggregation are finite at every
  entry.  The only place an infinity could arise is the inverse square root of a node's degree; but
  every node carries a self-loop, so its degree is a count that is at least one, and the inverse
  square root of a positive real is a real.  Everything else is a finite sum of products of reals.
-/
import proofs.«101147_j4887672783235_1_alg».proof.Proof.Spec
import Idealize.ShloMosaic.PureOps.Ideal
import Idealize.ShloMosaic.PureOps.Ideal.Laws
import Idealize.ShloMosaic.Lib.ValueIdx
import Idealize.ShloMosaic.Lib.Pipeline.Value
import Mathlib.Data.EReal.Operations

noncomputable section

open scoped BigOperators

namespace Cert.Spec

open Idealize.ShloMosaic Idealize.ShloMosaic.ValueIdx

/-! ## Finite extended reals are the reals -/

theorem isFin_coe (r : ℝ) : IsFin (r : EReal) := ⟨EReal.coe_ne_top r, EReal.coe_ne_bot r⟩

theorem isFin_iff {x : EReal} : IsFin x ↔ ∃ r : ℝ, x = (r : EReal) := by
  constructor
  · rintro ⟨h1, h2⟩; exact ⟨x.toReal, (EReal.coe_toReal h1 h2).symm⟩
  · rintro ⟨r, rfl⟩; exact isFin_coe r

theorem isFin_zero : IsFin (0 : EReal) := isFin_coe 0

theorem isFin_add {x y : EReal} (hx : IsFin x) (hy : IsFin y) : IsFin (x + y) := by
  obtain ⟨a, rfl⟩ := isFin_iff.1 hx
  obtain ⟨b, rfl⟩ := isFin_iff.1 hy
  rw [← EReal.coe_add]; exact isFin_coe _

theorem isFin_mul {x y : EReal} (hx : IsFin x) (hy : IsFin y) : IsFin (x * y) := by
  obtain ⟨a, rfl⟩ := isFin_iff.1 hx
  obtain ⟨b, rfl⟩ := isFin_iff.1 hy
  rw [← EReal.coe_mul]; exact isFin_coe _

theorem isFin_max {x y : EReal} (hx : IsFin x) (hy : IsFin y) : IsFin (max x y) := by
  rcases max_choice x y with h | h <;> rw [h] <;> assumption

/-- A finite sum of finite terms is finite. -/
theorem isFin_sum {ι : Type*} (s : Finset ι) (f : ι → EReal) (h : ∀ i ∈ s, IsFin (f i)) : IsFin (∑ i ∈ s, f i) := by
  classical
  induction s using Finset.induction_on with
  | empty => rw [Finset.sum_empty]; exact isFin_zero
  | insert a s ha ih =>
    rw [Finset.sum_insert ha]
    exact isFin_add (h _ (Finset.mem_insert_self _ _)) (ih fun i hi => h i (Finset.mem_insert_of_mem hi))

/-- The inverse square root of a count over a nonempty set is a real. -/
theorem isFin_rsqrt_count {ι : Type*} (s : Finset ι) (hs : s.Nonempty) (c0 c1 : EReal) (h0 : c0 = 0) (h1 : c1 = 1) :
    IsFin (Ideal.rsqrt (c0 + ∑ _j ∈ s, c1)) := by
  subst h0 h1
  rw [zero_add, Finset.sum_const, ← EReal.coe_one, ← EReal.coe_nsmul, Ideal.rsqrt_coe]
  have hpos : (0 : ℝ) < s.card • (1 : ℝ) := by
    rw [nsmul_eq_mul, mul_one]; exact_mod_cast hs.card_pos
  rw [if_neg (not_lt.2 hpos.le), if_neg hpos.ne']
  exact isFin_coe _

/-! ## The feature product and the clamp -/

theorem hmm_fin (x : FVec Ideal S100000x128 .f32) (W : FVec Ideal S128x128 .f32)
    (hx : ∀ i, IsFin (x i)) (hW : ∀ i, IsFin (W i)) : ∀ i, IsFin (hmm x W i) := by
  intro i
  unfold hmm
  exact isFin_sum _ _ fun k _ => isFin_mul (hx _) (hW _)

theorem relu_fin (a : FVec Ideal S100000x128 .f32) (ha : ∀ i, IsFin (a i)) : ∀ i, IsFin (relu a i) := by
  intro i
  unfold relu
  exact isFin_max (ha i) isFin_zero

/-! ## The two constants -/

theorem ofBits_one_f32 : Ideal.ofBits .f32 0x3F800000#32 = 1 := by
  simp [Ideal.ofBits, Ideal.ieee, -EReal.coe_mul] <;> norm_num

/-! ## The self-loop slot of a node, and where the degree count's scatter puts it -/

/-- The edge slot that carries node n's self-loop: the n-th slot after the 640000 given edges. -/
def selfSlot (n : Fin 100000) : S740000.Idx := ix1 ⟨640000 + n.val, by omega⟩

/-- The destination word of a node's self-loop slot is the node's number. -/
theorem dstIdx_selfSlot (ei : IVec S2x640000 32) (n : Fin 100000) :
    dstIdx ei (selfSlot n) = BitVec.ofNat 32 n.val := by
  unfold dstIdx
  rw [concatenate_pair_apply_right (0 : Fin S740000.rank) _ _ concat_edges (selfSlot n) rfl rfl (ix1 n)
    (fun b hb => absurd (Subsingleton.elim _ _) hb) (by show n.val + 640000 = 640000 + n.val; omega)]
  rfl

/-- A 32-bit word holding a node number reads, signed, as that number. -/
theorem toInt_ofNat_node (n : Fin 100000) : (BitVec.ofNat 32 n.val).toInt = (n.val : Int) := by
  have h : (BitVec.ofNat 32 n.val).toNat = n.val := by
    rw [BitVec.toNat_ofNat]; exact Nat.mod_eq_of_lt (by omega)
  rw [BitVec.toInt_eq_toNat_of_lt (by rw [h]; omega), h]

/-- Off the index vector's axis, the scatter's index into the index column is the edge slot's number. -/
theorem scat1_siIdx_val (j : S740000.Idx) (c : Fin scat1.scatterDimsToOperandDims.length) (b : Fin S740000x1.rank)
    (hb : ¬ b.val = scat1.indexVectorDim) : (scat1.siIdx j c b).val = (j 0).val := by
  unfold ScatterDims.siIdx
  simp only [dif_neg hb]
  unfold ScatterDims.siCoord
  simp only [Fin.val_cast]
  exact congrArg (fun x => (j x).val) (Subsingleton.elim _ _)

/-- The scatter's start for an edge slot is the slot's destination word, read signed. -/
theorem scat1_start_bc (v : IVec S740000 32) (j : S740000.Idx) (a : Fin S100000.rank) :
    scat1.start j (broadcastInDim S740000x1 ![0] bc_col v) a = (v j).toInt := by
  have ha0 : a = 0 := Subsingleton.elim _ _
  subst ha0
  unfold ScatterDims.start
  rw [dif_pos (by decide)]
  congr 1
  unfold broadcastInDim
  congr 1
  funext b
  have hb : b = 0 := Subsingleton.elim _ _
  subst hb
  rw [dif_neg (by decide)]
  apply Fin.ext
  exact scat1_siIdx_val j _ _ (by decide)

/-- The degree count's scatter has no window. -/
theorem scat1_window (j : S740000.Idx) (a : Fin S100000.rank) : scat1.window j a = 0 := by
  have ha0 : a = 0 := Subsingleton.elim _ _
  subst ha0
  unfold ScatterDims.window
  rw [dif_neg (by decide)]

/-- An edge slot whose destination word is a node number lands on that node. -/
theorem scat1_resultIdx_of_word (v : IVec S740000 32) (j : S740000.Idx) (n : Fin 100000)
    (hv : v j = BitVec.ofNat 32 n.val) :
    scat1.resultIdx? j (broadcastInDim S740000x1 ![0] bc_col v) = some (ix1 n) := by
  have hst : ∀ a, scat1.start j (broadcastInDim S740000x1 ![0] bc_col v) a + (scat1.window j a : Int) = (n.val : Int) := by
    intro a
    rw [scat1_start_bc, scat1_window, hv, toInt_ofNat_node]; simp
  unfold ScatterDims.resultIdx?
  rw [dif_pos (by
    intro a
    have ha0 : a = 0 := Subsingleton.elim _ _
    subst ha0
    rw [hst 0]
    have : S100000.size 0 = 100000 := rfl
    have := n.isLt
    omega)]
  congr 1
  funext a
  have ha0 : a = 0 := Subsingleton.elim _ _
  subst ha0
  apply Fin.ext
  show (scat1.start j (broadcastInDim S740000x1 ![0] bc_col v) 0 + (scat1.window j 0 : Int)).toNat = n.val
  rw [hst 0]; simp

/-! ## The operations read at an index, over arbitrary operands -/

theorem hostRsqrt_apply {s : Shape} (x : FVec Ideal s .f32) (i : s.Idx) : Host.rsqrt x i = Ideal.rsqrt (x i) := rfl

theorem mulf_apply {s : Shape} (x y : FVec Ideal s .f32) (i : s.Idx) : mulf x y i = x i * y i := rfl

theorem addf_apply {s : Shape} (x y : FVec Ideal s .f32) (i : s.Idx) : addf x y i = x i + y i := rfl

theorem scatterAdd_apply {s si su : Shape} {w : Nat} (d : ScatterDims s si su) (x : FVec Ideal s .f32) (idx : IVec si w)
    (upd : FVec Ideal su .f32) (i : s.Idx) :
    Host.scatterAdd d x idx upd i = Ideal.hostScatterAdd d x idx upd i := rfl

theorem bc_constant_apply (t : Shape) (dims : Fin S_.rank → Fin t.rank) (hbc : S_.BroadcastsInDim t dims) (w : BitVec 32)
    (j : t.Idx) : broadcastInDim t dims hbc (constant (F := Ideal) S_ .f32 w) j = Ideal.ofBits .f32 w := rfl

/-- A broadcast of finite entries has finite entries: each entry read is an entry of the operand. -/
theorem bc_fin {s t : Shape} (dims : Fin s.rank → Fin t.rank) (hbc : s.BroadcastsInDim t dims) (x : s.Idx → EReal)
    (hx : ∀ k, IsFin (x k)) (j : t.Idx) : IsFin (broadcastInDim t dims hbc x j) := hx _

/-- A gather of finite entries has finite entries: each entry read is an entry of the operand. -/
theorem gather_fin {s si t : Shape} {w : Nat} (d : GatherDims s si t) (x : s.Idx → EReal) (idx : IVec si w)
    (hx : ∀ k, IsFin (x k)) (j : t.Idx) : IsFin (Host.gather d x idx j) := hx _

/-! ## The aggregation -/

/-- Every node's degree counts its own self-loop, so its inverse square root is a real. -/
theorem rsqrt_deg_fin (ei : IVec S2x640000 32) (n : S100000.Idx) :
    IsFin (Host.rsqrt (degF (F := Ideal) ei) n) := by
  obtain ⟨m, rfl⟩ : ∃ m : Fin 100000, n = ix1 m := ⟨n 0, eq_ix1 n⟩
  rw [hostRsqrt_apply]
  unfold degF
  rw [scatterAdd_apply]
  unfold Ideal.hostScatterAdd
  simp only [bc_constant_apply, Ideal.ofBits_zero_f32, ofBits_one_f32]
  refine isFin_rsqrt_count _ ?_ 0 1 rfl rfl
  exact ⟨selfSlot m, Finset.mem_filter.2 ⟨Finset.mem_univ _,
    scat1_resultIdx_of_word (dstIdx ei) (selfSlot m) m (dstIdx_selfSlot ei m)⟩⟩

/-- Every edge's weight is a real. -/
theorem normF_fin (ei : IVec S2x640000 32) (k : S740000.Idx) : IsFin (normF (F := Ideal) ei k) := by
  unfold normF
  rw [mulf_apply]
  exact isFin_mul (gather_fin _ _ _ (rsqrt_deg_fin ei) _) (gather_fin _ _ _ (rsqrt_deg_fin ei) _)

theorem aggF_fin (h : FVec Ideal S100000x128 .f32) (ei : IVec S2x640000 32) (b : FVec Ideal S128 .f32)
    (hh : ∀ i, IsFin (h i)) (hb : ∀ j, IsFin (b j)) : ∀ i, IsFin (aggF (F := Ideal) h ei b i) := by
  intro i
  unfold aggF
  rw [addf_apply, scatterAdd_apply]
  unfold Ideal.hostScatterAdd
  refine isFin_add (isFin_add ?_ (isFin_sum _ _ fun j _ => ?_)) (bc_fin _ _ _ (bc_fin _ _ _ hb) i)
  · rw [bc_constant_apply, Ideal.ofBits_zero_f32]; exact isFin_zero
  · rw [mulf_apply]
    exact isFin_mul (gather_fin _ _ _ hh _) (bc_fin _ _ _ (bc_fin _ _ _ (normF_fin ei)) _)

end Cert.Spec

end
-- ==== Proof.PreFin.lean ====
/-
  What the printed precondition says of the kernel's float inputs: each of the node features, the weight matrix
  and the bias has only finite entries.  The precondition is the conjunction, over the five float inputs, of
  "every entry's absolute value is below plus infinity"; a conjunction of one-bit words that is 1 has every
  conjunct 1, a reduction by "and" over all axes that is 1 met a 1 at every index, and on the extended reals
  `max x (-x) < ⊤` says `x` is neither infinity.
-/
import proofs.«101147_j4887672783235_1_alg».proof.Defs
import proofs.«101147_j4887672783235_1_alg».proof.Proof.Gen.Pre_finite_inputs
import proofs.«101147_j4887672783235_1_alg».proof.Proof.Spec
import Idealize.ShloMosaic.Lib.ReduceAll
import Idealize.ShloMosaic.PureOps.Ideal.Laws

noncomputable section

namespace Cert.PreFin

open Idealize.ShloMosaic Idealize.SL.Sem

/-- The pattern `0x7F800000` denotes plus infinity. -/
theorem ofBits_inf : Ideal.ofBits .f32 0x7F800000#32 = (⊤ : EReal) := by
  simp [Ideal.ofBits, Ideal.ieee]

/-- An extended real whose absolute value `max x (-x)` compares below plus infinity is neither infinity. -/
theorem isFin_of_cmp {x : EReal}
    (h : Ideal.cmp .olt (max x (-x)) (Ideal.ofBits .f32 0x7F800000#32) = 1#1) : Cert.Spec.IsFin x := by
  rw [ofBits_inf] at h
  have hlt : max x (-x) < ⊤ := by
    by_contra hn
    simp [Ideal.cmp, hn] at h
  rw [max_lt_iff] at hlt
  refine ⟨ne_of_lt hlt.1, fun hb => ?_⟩
  rw [hb] at hlt
  exact absurd hlt.2 (by simp)

/-- The only index of the rank-0 shape. -/
instance : Subsingleton Cert.Pre_finite_inputs.S_.Idx := ⟨fun a b => funext fun d => d.elim0⟩

/-- One input's conjunct: if the reduction by "and" of "`|a| < +inf`" over all of `a`'s axes is 1, every entry of
    `a` is finite. -/
theorem fin_of_all {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf a) (broadcastInDim s ![] bc (constant Cert.Pre_finite_inputs.S_ .f32 0x7F800000#32)))
        init hr hu ValueIdx.ix0 = 1#1) (i : s.Idx) : Cert.Spec.IsFin (a i) :=
  isFin_of_cmp (x := a i) (Host.reduce_andi_all _ init hr hu ValueIdx.ix0 e i)

theorem fin_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, Cert.Spec.IsFin (m ((c.tc : Thread Cert.KernelIdeal.nD Cert.KernelIdeal.τ).loc Cert.KernelIdeal.main_arg0) i))
    ∧ (∀ i, Cert.Spec.IsFin (m ((c.tc : Thread Cert.KernelIdeal.nD Cert.KernelIdeal.τ).loc Cert.KernelIdeal.main_arg2) i))
    ∧ (∀ i, Cert.Spec.IsFin (m ((c.tc : Thread Cert.KernelIdeal.nD Cert.KernelIdeal.τ).loc Cert.KernelIdeal.main_arg3) i)) := by
  have h0 := congrFun (h c) ValueIdx.ix0
  dsimp only [Cert.Pre_finite_inputs.fn, Cert.Pre_finite_inputs.fn_part1] at h0
  obtain ⟨h1, h22⟩ := IntOp.andi_eq_one.1 h0
  obtain ⟨h2, h17⟩ := IntOp.andi_eq_one.1 h1
  obtain ⟨h3, h12⟩ := IntOp.andi_eq_one.1 h2
  obtain ⟨h4, h7⟩ := IntOp.andi_eq_one.1 h3
  exact ⟨fun i => fin_of_all _ _ _ _ _ h4 i, fun i => fin_of_all _ _ _ _ _ h7 i, fun i => fin_of_all _ _ _ _ _ h12 i⟩

end Cert.PreFin

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.KReg0.lean ====
/-
  The first kernel region's result array: the matrix product of the node features and the weights, whatever the region finds in its arrays.
-/
import proofs.«101147_j4887672783235_1_alg».proof.Proof.Gen.KernelIdeal.Frame
import proofs.«101147_j4887672783235_1_alg».proof.Proof.Spec
import Idealize.ShloMosaic.Lib.Pipeline.Value
import Idealize.ShloMosaic.Lib.ValueIdx
import Idealize.ShloMosaic.PureOps.Ideal.Laws
import proofs.«101147_j4887672783235_1_alg».proof.Proof.LibContraction

set_option maxRecDepth 16384

noncomputable section

open scoped BigOperators

namespace Cert.KernelIdeal.KReg0

open Idealize.ShloMosaic Idealize.ShloMosaic.TcCoe Idealize.SL.Sem Idealize.ShloMosaic.ValueIdx
open Idealize.ShloMosaic.Pipeline (Dat)
open Cert.KernelIdeal Cert.KernelIdeal.Gen

/-- The contraction of the region's one matrix product: the left operand's second axis against the right operand's first. -/
abbrev dd := dot_S5000x128_S128x128_S5000x128_1_0_0_1_n_n

/-- The body's payload at row `p` and column `q` of the block: the sum over `k` of the products of the left block's
    row `p` and the right block's column `q` (the narrowing of the operands is the identity on the extended reals, and
    the accumulator is zero). -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dd none _ _ (ix2 p q)).trans ?_
  rw [Cert.Lib.Contraction.sum_contr dd (cl := (1 : Fin 2)) rfl 128 rfl]
  refine Finset.sum_congr rfl fun k _ => ?_
  have hl : dd.lhsIdx (ix2 p q) ((Cert.Lib.Contraction.contrFin dd (cl := (1 : Fin 2)) rfl 128 rfl).symm k) = ix2 p k :=
    Shape.idx_ext₂ (Cert.Lib.Contraction.lhs_free dd (nl := (0 : Fin 2)) rfl rfl _ _ (by decide))
      (Cert.Lib.Contraction.lhs_contracted dd (cl := (1 : Fin 2)) rfl 128 rfl _ k)
  have hr : dd.rhsIdx (ix2 p q) ((Cert.Lib.Contraction.contrFin dd (cl := (1 : Fin 2)) rfl 128 rfl).symm k) = ix2 k q :=
    Shape.idx_ext₂ (Cert.Lib.Contraction.rhs_contracted dd (cl := (1 : Fin 2)) (cr := (0 : Fin 2)) rfl rfl 128 rfl _ k)
      (Cert.Lib.Contraction.rhs_free dd (nl := (0 : Fin 2)) (nr := (1 : Fin 2)) rfl rfl rfl rfl _ _ (by decide))
  rw [hl, hr]
  rfl

/-- The same at any index of the block, by its two coordinates. -/
theorem pay_apply_idx (x0 : Vec Ideal S5000x128 .f32) (x1 : Vec Ideal S128x128 .f32) (j : S5000x128.Idx) :
    k0_pay1 (F := Ideal) x0 x1 j = ∑ k : Fin 128, x0 (ix2 (j 0) k) * x1 (ix2 k (j 1)) :=
  (congrArg (k0_pay1 (F := Ideal) x0 x1) (eq_ix2 j)).trans (pay_apply x0 x1 (j 0) (j 1))

/-- The offsets `(0, 0)` are the zero function. -/
theorem hz2 : (![0, 0] : Fin 2 → Nat) = fun _ => 0 := funext fun a => by fin_cases a <;> rfl

/-- The block indices, decided over the grid: at point `t` the left operand's and the result's blocks are the `t`-th
    blocks of rows, all columns; the right operand's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- At point `t`, the sum over `k` of the products of the left block's row and the right block's column, read off two
    arrays `X` and `W` through the point's blocks, is the matrix product of `X` and `W` at the array index the result's block
    puts the block index at: the left block's rows are the result block's rows, its columns all of `X`'s; the right block is
    all of `W`. -/
theorem blk_sum (X : FVec Ideal S100000x128 .f32) (W : FVec Ideal S128x128 .f32) (t : Fin cfg0.N)
    (j : ((cfg0.win 2).xblock (grid0.coords t)).Idx) :
    ∑ k : Fin 128, X (((cfg0.win 0).blk t).view.emb (ix2 (n0 := 5000) (n1 := 128) ⟨(j 0).val, (j 0).isLt⟩ k))
        * W (((cfg0.win 1).blk t).view.emb (ix2 (n0 := 128) (n1 := 128) k ⟨(j 1).val, (j 1).isLt⟩))
      = Cert.Spec.hmm X W (((cfg0.win 2).blk t).view.emb j) := by
  obtain ⟨e0, e1, e2, e3, e4, e5⟩ := idx_facts t
  show _ = ∑ k : Fin 128, X (ix2 ((((cfg0.win 2).blk t).view.emb j) 0) k) * W (ix2 k ((((cfg0.win 2).blk t).view.emb j) 1))
  refine Finset.sum_congr rfl fun k _ => ?_
  have h0 : ((cfg0.win 0).blk t).view.emb (ix2 (n0 := 5000) (n1 := 128) ⟨(j 0).val, (j 0).isLt⟩ k)
      = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 128 + 1 * k.val = k.val; rw [e1]; omega
  have h1 : ((cfg0.win 1).blk t).view.emb (ix2 (n0 := 128) (n1 := 128) k ⟨(j 1).val, (j 1).isLt⟩)
      = ix2 k ((((cfg0.win 2).blk t).view.emb j) 1) := by
    funext a; apply Fin.ext
    match a with
    | ⟨0, _⟩ => show win0_1.index t (0 : Fin 2) * 128 + 1 * k.val = k.val; rw [e2]; omega
    | ⟨1, _⟩ => show win0_1.index t (1 : Fin 2) * 128 + 1 * (j 1).val = win0_2.index t (1 : Fin 2) * 128 + 1 * (j 1).val; rw [e3, e5]
  rw [h0, h1]
  rfl

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every index of the array is in some point's block: row `r` is in the block of point `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 5000 < cfg0.N := by
    show (i 0).val / 5000 < grid0.N
    rw [N_0]; omega
  refine ⟨⟨(i 0).val / 5000, ht⟩, flush0_2 _, ?_⟩
  rw [mem_blk]
  obtain ⟨e0, e1, e2, e3, e4, e5⟩ := idx_facts ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

variable (V : (c : Dev nD) → (b : Ref sig .tc) → Buf (Elt Ideal) ((c : Thread nD τ).loc b))

/-- What point `t` writes back is block `t` of the matrix product of the two input arrays as the region found them. -/
theorem flushed0_eq (c : Dev nD) (t : Fin cfg0.N) :
    (dat0 (F := Ideal) V c).flushed 2 t
      = ((cfg0.win 2).blk t).view.read (Elt Ideal) (Cert.Spec.hmm (V c main_arg0) (V c main_arg2)) := by
  show (cfg0.win 2).cut (grid0.coords t) ((dat0 (F := Ideal) V c).after 2 t) = _
  rw [after0_2]
  unfold out0_2
  rw [View.canon_unit_zero hz2]
  simp only [View.ld_unit_zero (S := S5000x128) hz2, View.ld_unit_zero (S := S128x128) hz2]
  funext j
  refine (pay_apply_idx _ _ _).trans ?_
  exact blk_sum (V c main_arg0) (V c main_arg2) t j

/-- After the region's twenty grid points its output array holds, at row `i` and column `j`, the sum over `k` of
    `x[i,k] · W[k,j]` of the two input arrays as the region found them. -/
theorem final0 (c : Dev nD) :
    (dat0 (F := Ideal) V c).arrAt 2 cfg0.N = Cert.Spec.hmm (V c main_arg0) (V c main_arg2) := by
  exact (dat0 (F := Ideal) V c).arrAt_eq_of_cover 2 _ (fun t _ => flushed0_eq V c t) cover

end Cert.KernelIdeal.KReg0

end
-- ==== Proof.KReg1.lean ====
/-
  The second kernel region's three result arrays: the clamped features, and each column's sum and sum of squares over all rows.
-/
import proofs.«101147_j4887672783235_1_alg».proof.Proof.Gen.KernelIdeal.Frame
import proofs.«101147_j4887672783235_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KReg1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## What each case of the body leaves in the three output buffers -/

theorem hz : (![0, 0] : Fin 2 → Nat) = fun _ => 0 := funext fun a => by fin_cases a <;> rfl

section Pieces
variable {F : FTy → Type} [FloatOps F]

/-- Past the first point the first output holds the clamped input block. -/
theorem out_B_1 (c : Dev nD) (i : grid1.Coords) (a1 : Memref sig .tc .vmem S5000x128 .f32) (h1 : a1.IsWhole)
    (a2 : Memref sig .tc .vmem S5000x128 .f32) (h2 : a2.IsWhole) (a3 : Memref sig .tc .vmem S1x128 .f32) (h3 : a3.IsWhole)
    (a4 : Memref sig .tc .vmem S1x128 .f32) (h4 : a4.IsWhole) (hc : ¬cond1_0 i) (x : Vec F S5000x128 .f32) (s2 s3 : Vec F S1x128 .f32) :
    out1_B_1 c i a1 h1 a2 h2 a3 h3 a4 h4 hc x s2 s3 = k1_pay3 x := by
  unfold out1_B_1
  rw [View.read_writes_eq_canon _ _ _ (cover1_B_1 c i a1 h1 a2 h2 a3 h3 a4 h4 hc x s2 s3)]
  unfold kernelRun1_B
  dsimp only
  rw [View.canon_unit_zero (S := S5000x128) hz]
  simp only [View.readAt_eq_ld, h1.read_unread, View.ld_unit_zero (S := S5000x128) hz]

/-- Past the first point the second output holds what it held plus the clamped block's column sums. -/
theorem out_B_2 (c : Dev nD) (i : grid1.Coords) (a1 : Memref sig .tc .vmem S5000x128 .f32) (h1 : a1.IsWhole)
    (a2 : Memref sig .tc .vmem S5000x128 .f32) (h2 : a2.IsWhole) (a3 : Memref sig .tc .vmem S1x128 .f32) (h3 : a3.IsWhole)
    (a4 : Memref sig .tc .vmem S1x128 .f32) (h4 : a4.IsWhole) (hc : ¬cond1_0 i) (x : Vec F S5000x128 .f32) (s2 s3 : Vec F S1x128 .f32) :
    out1_B_2 c i a1 h1 a2 h2 a3 h3 a4 h4 hc x s2 s3 = k1_pay4 x s2 := by
  unfold out1_B_2
  rw [View.read_writes_eq_canon _ _ _ (cover1_B_2 c i a1 h1 a2 h2 a3 h3 a4 h4 hc x s2 s3)]
  unfold kernelRun1_B
  dsimp only
  rw [View.canon_unit_zero (S := S1x128) hz]
  simp only [View.readAt_eq_ld, h1.read_unread, h3.read_unread, View.ld_unit_zero (S := S5000x128) hz,
    View.ld_unit_zero (S := S1x128) hz]

/-- Past the first point the third output holds what it held plus the column sums of the clamped block's squares. -/
theorem out_B_3 (c : Dev nD) (i : grid1.Coords) (a1 : Memref sig .tc .vmem S5000x128 .f32) (h1 : a1.IsWhole)
    (a2 : Memref sig .tc .vmem S5000x128 .f32) (h2 : a2.IsWhole) (a3 : Memref sig .tc .vmem S1x128 .f32) (h3 : a3.IsWhole)
    (a4 : Memref sig .tc .vmem S1x128 .f32) (h4 : a4.IsWhole) (hc : ¬cond1_0 i) (x : Vec F S5000x128 .f32) (s2 s3 : Vec F S1x128 .f32) :
    out1_B_3 c i a1 h1 a2 h2 a3 h3 a4 h4 hc x s2 s3 = k1_pay5 x s3 := by
  unfold out1_B_3
  rw [View.read_writes_eq_canon _ _ _ (cover1_B_3 c i a1 h1 a2 h2 a3 h3 a4 h4 hc x s2 s3)]
  unfold kernelRun1_B
  dsimp only
  rw [View.canon_unit_zero (S := S1x128) hz]
  simp only [View.readAt_eq_ld, h1.read_unread, h4.read_unread, View.ld_unit_zero (S := S5000x128) hz,
    View.ld_unit_zero (S := S1x128) hz]

/-- At the first point the first output holds the clamped input block. -/
theorem out_A_1 (c : Dev nD) (i : grid1.Coords) (a1 : Memref sig .tc .vmem S5000x128 .f32) (h1 : a1.IsWhole)
    (a2 : Memref sig .tc .vmem S5000x128 .f32) (h2 : a2.IsWhole) (a3 : Memref sig .tc .vmem S1x128 .f32) (h3 : a3.IsWhole)
    (a4 : Memref sig .tc .vmem S1x128 .f32) (h4 : a4.IsWhole) (hc : cond1_0 i) (x : Vec F S5000x128 .f32) :
    out1_A_1 c i a1 h1 a2 h2 a3 h3 a4 h4 hc x = k1_pay3 x := by
  unfold out1_A_1
  rw [View.read_writes_eq_canon _ _ _ (cover1_A_1 c i a1 h1 a2 h2 a3 h3 a4 h4 hc x)]
  unfold kernelRun1_A
  dsimp only
  rw [View.canon_unit_zero (S := S5000x128) hz]
  simp only [View.readAt_eq_ld, h1.read_unread, View.ld_unit_zero (S := S5000x128) hz]

/-- At the first point the second output is reset to zero and then takes the clamped block's column sums. -/
theorem out_A_2 (c : Dev nD) (i : grid1.Coords) (a1 : Memref sig .tc .vmem S5000x128 .f32) (h1 : a1.IsWhole)
    (a2 : Memref sig .tc .vmem S5000x128 .f32) (h2 : a2.IsWhole) (a3 : Memref sig .tc .vmem S1x128 .f32) (h3 : a3.IsWhole)
    (a4 : Memref sig .tc .vmem S1x128 .f32) (h4 : a4.IsWhole) (hc : cond1_0 i) (x : Vec F S5000x128 .f32) :
    out1_A_2 c i a1 h1 a2 h2 a3 h3 a4 h4 hc x = k1_pay4 x k1_pay1 := by
  unfold out1_A_2
  rw [View.read_writes_eq_canon _ _ _ (cover1_A_2 c i a1 h1 a2 h2 a3 h3 a4 h4 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- At the first point the third output is reset to zero and then takes the column sums of the clamped block's squares. -/
theorem out_A_3 (c : Dev nD) (i : grid1.Coords) (a1 : Memref sig .tc .vmem S5000x128 .f32) (h1 : a1.IsWhole)
    (a2 : Memref sig .tc .vmem S5000x128 .f32) (h2 : a2.IsWhole) (a3 : Memref sig .tc .vmem S1x128 .f32) (h3 : a3.IsWhole)
    (a4 : Memref sig .tc .vmem S1x128 .f32) (h4 : a4.IsWhole) (hc : cond1_0 i) (x : Vec F S5000x128 .f32) :
    out1_A_3 c i a1 h1 a2 h2 a3 h3 a4 h4 hc x = k1_pay5 x k1_pay2 := by
  unfold out1_A_3
  rw [View.read_writes_eq_canon _ _ _ (cover1_A_3 c i a1 h1 a2 h2 a3 h3 a4 h4 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

end Pieces

/-! ## The payloads read at an index, over the extended reals -/

/-- The clamped block at row `p`, column `q`. -/
theorem pay3_apply (x : Vec Ideal S5000x128 .f32) (p : Fin 5000) (q : Fin 128) :
    k1_pay3 (F := Ideal) x (ix2 p q) = max (x (ix2 p q)) 0 := by
  unfold k1_pay3
  simp only [shapeCast_self]
  show max (x (ix2 p q)) (Ideal.ofBits .f32 0x00000000#32) = _
  rw [Ideal.ofBits_zero_f32]

/-- The reset value is zero. -/
theorem pay1_apply (j : S1x128.Idx) : k1_pay1 (F := Ideal) j = 0 := by
  show Ideal.ofBits .f32 0x00000000#32 = 0
  rw [Ideal.ofBits_zero_f32]
theorem pay2_apply (j : S1x128.Idx) : k1_pay2 (F := Ideal) j = 0 := by
  show Ideal.ofBits .f32 0x00000000#32 = 0
  rw [Ideal.ofBits_zero_f32]

/-- The row a reduction over the first axis inserts. -/
theorem lift_eq (q : Fin 128) (p : Fin 5000) : reduces_S5000x128_S128.lift (ix1 q) p = ix2 p q := by
  funext a
  match a with
  | ⟨0, _⟩ => rfl
  | ⟨1, _⟩ => rfl

/-- A row vector cast to a one-row matrix reads the same entry. -/
theorem cast_row_apply {α : Type} (x : S128.Idx → α) (u : Fin 1) (q : Fin 128) :
    shapeCast S1x128 x shapeCasts_S128_S1x128 (ix2 u q) = x (ix1 q) :=
  shapeCast_apply x shapeCasts_S128_S1x128 _ _ (by
    have hu : u.val = 0 := by omega
    rw [Shape.rowMajor_val_two, Shape.rowMajor_val_one]
    show q.val = u.val * 128 + q.val
    rw [hu, Nat.zero_mul, Nat.zero_add])

/-- The running column sum after one more block. -/
theorem pay4_apply (x : Vec Ideal S5000x128 .f32) (s : Vec Ideal S1x128 .f32) (u : Fin 1) (q : Fin 128) :
    k1_pay4 (F := Ideal) x s (ix2 u q) = s (ix2 u q) + ∑ p : Fin 5000, max (x (ix2 p q)) 0 := by
  unfold k1_pay4
  simp only [shapeCast_self]
  show s (ix2 u q) + shapeCast S1x128 (multiReduction .add [0] S128 (k1_pay3 (F := Ideal) x) 0x00000000#32 reduces_S5000x128_S128 (.inl rfl) rfl) shapeCasts_S128_S1x128 (ix2 u q) = _
  rw [cast_row_apply]
  refine congrArg (fun z => s (ix2 u q) + z) ?_
  refine (Ideal.multiReduction_add_single (k1_pay3 (F := Ideal) x) 0x00000000#32 reduces_S5000x128_S128 (.inl rfl) rfl (ix1 q)).trans ?_
  exact Finset.sum_congr rfl fun (p : Fin 5000) _ =>
    (congrArg (k1_pay3 (F := Ideal) x) (lift_eq q p)).trans (pay3_apply x p q)

/-- The running column sum of squares after one more block. -/
theorem pay5_apply (x : Vec Ideal S5000x128 .f32) (s : Vec Ideal S1x128 .f32) (u : Fin 1) (q : Fin 128) :
    k1_pay5 (F := Ideal) x s (ix2 u q) = s (ix2 u q) + ∑ p : Fin 5000, max (x (ix2 p q)) 0 * max (x (ix2 p q)) 0 := by
  unfold k1_pay5
  simp only [shapeCast_self]
  show s (ix2 u q) + shapeCast S1x128 (multiReduction .add [0] S128 (mulf (k1_pay3 (F := Ideal) x) (k1_pay3 (F := Ideal) x)) 0x00000000#32 reduces_S5000x128_S128 (.inl rfl) rfl) shapeCasts_S128_S1x128 (ix2 u q) = _
  rw [cast_row_apply]
  refine congrArg (fun z => s (ix2 u q) + z) ?_
  refine (Ideal.multiReduction_add_single (mulf (k1_pay3 (F := Ideal) x) (k1_pay3 (F := Ideal) x)) 0x00000000#32 reduces_S5000x128_S128 (.inl rfl) rfl (ix1 q)).trans ?_
  refine Finset.sum_congr rfl fun (p : Fin 5000) _ => ?_
  refine (congrArg (mulf (k1_pay3 (F := Ideal) x) (k1_pay3 (F := Ideal) x)) (lift_eq q p)).trans ?_
  show k1_pay3 (F := Ideal) x (ix2 p q) * k1_pay3 (F := Ideal) x (ix2 p q) = _
  rw [pay3_apply]

/-! ## A column as a sequence, and its partial sums -/

/-- Column `q` of a 100000-row array as a sequence, zero past its end. -/
def col (f : Cert.Spec.S100000x128.Idx → EReal) (q : Fin 128) (k : ℕ) : EReal :=
  if h : k < 100000 then f (ix2 ⟨k, h⟩ q) else 0

theorem col_lt (f : Cert.Spec.S100000x128.Idx → EReal) (q : Fin 128) (k : ℕ) (h : k < 100000) :
    col f q k = f (ix2 ⟨k, h⟩ q) := dif_pos h

/-- Clamping commutes with reading a column. -/
theorem max_col (A : Cert.Spec.S100000x128.Idx → EReal) (q : Fin 128) (k : ℕ) :
    max (col A q k) 0 = col (Cert.Spec.relu A) q k := by
  unfold col
  split
  · rfl
  · exact max_self 0

/-- Squaring commutes with reading a column. -/
theorem sq_col (r : Cert.Spec.S100000x128.Idx → EReal) (q : Fin 128) (k : ℕ) :
    col r q k * col r q k = col (fun i => r i * r i) q k := by
  unfold col
  split
  · rfl
  · exact mul_zero 0

/-- The partial sums step by one block of 5000 rows. -/
theorem psum_step (g : ℕ → EReal) (n : ℕ) :
    ∑ k ∈ Finset.range (5000 * (n + 1)), g k
      = ∑ k ∈ Finset.range (5000 * n), g k + ∑ p : Fin 5000, g (5000 * n + p.val) := by
  rw [show 5000 * (n + 1) = 5000 * n + 5000 from by omega, Finset.sum_range_add]
  exact congrArg (fun z => ∑ k ∈ Finset.range (5000 * n), g k + z) (Finset.sum_range fun x => g (5000 * n + x))

/-- Twenty blocks are the whole column. -/
theorem psum_all (f : Cert.Spec.S100000x128.Idx → EReal) (q : Fin 128) :
    ∑ k ∈ Finset.range 100000, col f q k = Cert.Spec.colsum f q := by
  rw [Finset.sum_range]
  unfold Cert.Spec.colsum
  exact Finset.sum_congr rfl fun i _ => col_lt f q i.val i.isLt

/-! ## The input block at a point -/

theorem idx1_0 : ∀ t : Fin grid1.N, win1_0.index t (0 : Fin 2) = t.val ∧ win1_0.index t (1 : Fin 2) = 0 := by
  decide +kernel

/-- The input block at point `t`, at its literal shape. -/
abbrev xblk (c : Dev nD) (t : Fin cfg1.N) : Vec Ideal S5000x128 .f32 := iblk1 (F := Ideal) V c 0 t

/-- Row `p` of the block at point `t` is row `5000 t + p` of the array. -/
theorem iblk_apply (c : Dev nD) (t : Fin cfg1.N) (p : Fin 5000) (q : Fin 128) :
    xblk V c t (ix2 p q) = col (V c main_v43) q (5000 * t.val + p.val) := by
  have hN : t.val < 20 := lt_of_lt_of_eq t.isLt (show cfg1.N = 20 from N_1)
  have hi := idx1_0 t
  rw [col_lt _ _ _ (by have := p.isLt; omega)]
  unfold xblk iblk1
  rw [View.read_apply]
  show V c main_v43 _ = V c main_v43 _
  congr 1
  funext a
  apply Fin.ext
  match a with
  | ⟨0, _⟩ => show win1_0.index t 0 * 5000 + 1 * p.val = 5000 * t.val + p.val; rw [hi.1]; omega
  | ⟨1, _⟩ => show win1_0.index t 1 * 128 + 1 * q.val = q.val; rw [hi.2]; omega

/-- The clamped block's column sums are the next 5000 terms of the clamped column. -/
theorem blk_sum (c : Dev nD) (t : Fin cfg1.N) (q : Fin 128) :
    ∑ p : Fin 5000, max (xblk V c t (ix2 p q)) 0
      = ∑ p : Fin 5000, col (Cert.Spec.relu (V c main_v43)) q (5000 * t.val + p.val) :=
  Finset.sum_congr rfl fun p _ => by rw [iblk_apply, max_col]

/-- The same for the squares. -/
theorem blk_sumsq (c : Dev nD) (t : Fin cfg1.N) (q : Fin 128) :
    ∑ p : Fin 5000, max (xblk V c t (ix2 p q)) 0 * max (xblk V c t (ix2 p q)) 0
      = ∑ p : Fin 5000, col (fun i => Cert.Spec.relu (V c main_v43) i * Cert.Spec.relu (V c main_v43) i) q (5000 * t.val + p.val) :=
  Finset.sum_congr rfl fun p _ => by rw [iblk_apply, max_col, sq_col]

/-! ## What the three buffers hold after each point -/

/-- After point `n`: the clamped block `n`, and in the two accumulators the partial sums over the first `n + 1` blocks
    of the clamped column and of its squares. -/
def Inv (c : Dev nD) (n : ℕ) (h : n < cfg1.N) : Prop :=
    (outsAt1 (F := Ideal) V c n h).1 = k1_pay3 (F := Ideal) (xblk V c ⟨n, h⟩)
    ∧ (∀ (u : Fin 1) (q : Fin 128), (outsAt1 (F := Ideal) V c n h).2.1 (ix2 u q)
        = ∑ k ∈ Finset.range (5000 * (n + 1)), col (Cert.Spec.relu (V c main_v43)) q k)
    ∧ (∀ (u : Fin 1) (q : Fin 128), (outsAt1 (F := Ideal) V c n h).2.2 (ix2 u q)
        = ∑ k ∈ Finset.range (5000 * (n + 1)), col (fun i => Cert.Spec.relu (V c main_v43) i * Cert.Spec.relu (V c main_v43) i) q k)

/-- The first point: both accumulators are reset, then take the first block. -/
theorem inv_zero (c : Dev nD) (h : 0 < cfg1.N) : Inv V c 0 h := by
  have e := outsAt1_A (F := Ideal) V c ⟨0, h⟩ rfl
  refine ⟨?_, fun u q => ?_, fun u q => ?_⟩
  · refine (congrArg (fun z => z.1) e).trans ?_
    dsimp only
    exact out_A_1 ..
  · refine (congrFun (congrArg (fun z => z.2.1) e) (ix2 u q)).trans ?_
    dsimp only
    refine (congrFun (out_A_2 ..) (ix2 u q)).trans ?_
    refine (pay4_apply _ _ u q).trans ?_
    rw [pay1_apply, zero_add]
    refine (blk_sum V c ⟨0, h⟩ q).trans ?_
    rw [psum_step, Nat.mul_zero, Finset.range_zero, Finset.sum_empty, zero_add]
  · refine (congrFun (congrArg (fun z => z.2.2) e) (ix2 u q)).trans ?_
    dsimp only
    refine (congrFun (out_A_3 ..) (ix2 u q)).trans ?_
    refine (pay5_apply _ _ u q).trans ?_
    rw [pay2_apply, zero_add]
    refine (blk_sumsq V c ⟨0, h⟩ q).trans ?_
    rw [psum_step, Nat.mul_zero, Finset.range_zero, Finset.sum_empty, zero_add]

/-- A later point: both accumulators take one more block. -/
theorem inv_succ (c : Dev nD) (n : ℕ) (h : n + 1 < cfg1.N) (ih : Inv V c n (Nat.lt_of_succ_lt h)) : Inv V c (n + 1) h := by
  have hN : cfg1.N = 20 := N_1
  have hB : ¬(⟨n + 1, h⟩ : Fin cfg1.N).val % 20 = 0 := by dsimp only; omega
  have e := outsAt1_B (F := Ideal) V c ⟨n + 1, h⟩ hB
  obtain ⟨-, ih2, ih3⟩ := ih
  refine ⟨?_, fun u q => ?_, fun u q => ?_⟩
  · refine (congrArg (fun z => z.1) e).trans ?_
    dsimp only
    exact out_B_1 ..
  · refine (congrFun (congrArg (fun z => z.2.1) e) (ix2 u q)).trans ?_
    dsimp only
    refine (congrFun (out_B_2 ..) (ix2 u q)).trans ?_
    refine (pay4_apply _ _ u q).trans ?_
    rw [psum_step]
    refine congrArg₂ (· + ·) (ih2 u q) ?_
    exact blk_sum V c ⟨n + 1, h⟩ q
  · refine (congrFun (congrArg (fun z => z.2.2) e) (ix2 u q)).trans ?_
    dsimp only
    refine (congrFun (out_B_3 ..) (ix2 u q)).trans ?_
    refine (pay5_apply _ _ u q).trans ?_
    rw [psum_step]
    refine congrArg₂ (· + ·) (ih3 u q) ?_
    exact blk_sumsq V c ⟨n + 1, h⟩ q

/-- By induction on the point. -/
theorem outsAt_eq (c : Dev nD) : ∀ (n : ℕ) (h : n < cfg1.N), Inv V c n h
  | 0, h => inv_zero V c h
  | n + 1, h => inv_succ V c n h (outsAt_eq c n (Nat.lt_of_succ_lt h))

/-! ## From blocks to the arrays -/

theorem idx1_1 : ∀ t : Fin grid1.N, win1_1.index t (0 : Fin 2) = t.val ∧ win1_1.index t (1 : Fin 2) = 0 := by
  decide +kernel

/-- What point `t` writes back to the first result is block `t` of the clamped array. -/
theorem flushed_relu (c : Dev nD) (t : Fin cfg1.N) :
    (dat1 (F := Ideal) V c).flushed 1 t
      = ((cfg1.win 1).blk t).view.read (Elt Ideal) (Cert.Spec.relu (V c main_v43)) := by
  have hN : t.val < 20 := lt_of_lt_of_eq t.isLt (show cfg1.N = 20 from N_1)
  have hi := idx1_1 t
  show (cfg1.win 1).cut (grid1.coords t) ((dat1 (F := Ideal) V c).after 1 t) = _
  rw [after1_1, (outsAt_eq V c t.val t.isLt).1]
  funext j
  rw [View.read_apply]
  show k1_pay3 (F := Ideal) (xblk V c t) ((cfg1.win 1).xinj (grid1.coords t) j)
    = Cert.Spec.relu (V c main_v43) (((cfg1.win 1).blk t).view.emb j)
  obtain ⟨p, q, hpq⟩ : ∃ (p : Fin 5000) (q : Fin 128), (cfg1.win 1).xinj (grid1.coords t) j = ix2 p q :=
    ⟨_, _, eq_ix2 _⟩
  have hp : (j 0).val = p.val := congrArg (fun z => (z 0).val) hpq
  have hq : (j 1).val = q.val := congrArg (fun z => (z 1).val) hpq
  rw [hpq, pay3_apply, iblk_apply, max_col, col_lt _ _ _ (by have := p.isLt; omega)]
  congr 1
  funext a
  apply Fin.ext
  match a with
  | ⟨0, _⟩ => show 5000 * t.val + p.val = win1_1.index t 0 * 5000 + 1 * (j 0).val; rw [hi.1, hp]; omega
  | ⟨1, _⟩ => show q.val = win1_1.index t 1 * 128 + 1 * (j 1).val; rw [hi.2, hq]; omega

/-- An index of the array is in point `t`'s block iff its row is among the block's 5000. -/
theorem mem_blk_relu (t : Fin cfg1.N) (i : S100000x128.Idx) :
    i ∈ ((cfg1.win 1).blk t).view.set ↔ ∀ a : Fin 2, win1_1.index t a * S5000x128.size a ≤ (i a).val
      ∧ (i a).val < win1_1.index t a * S5000x128.size a + S5000x128.size a := by
  show i ∈ ((View.whole main_v44_0).slice (win1_1.rect t)).set ↔ _
  rw [View.set_slice_whole, Rect.mem_set_unit]
  exact Iff.rfl

/-- The twenty blocks cover the array: row `r` is in block `r / 5000`. -/
theorem cover_relu (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  have hN : cfg1.N = 20 := N_1
  have ht : (i 0).val / 5000 < cfg1.N := by omega
  refine ⟨⟨(i 0).val / 5000, ht⟩, flush1_1 _, ?_⟩
  rw [mem_blk_relu]
  obtain ⟨e0, e1⟩ := idx1_1 ⟨(i 0).val / 5000, ht⟩
  intro a
  match a with
  | ⟨0, _⟩ =>
    show win1_1.index ⟨(i 0).val / 5000, ht⟩ 0 * 5000 ≤ (i 0).val
      ∧ (i 0).val < win1_1.index ⟨(i 0).val / 5000, ht⟩ 0 * 5000 + 5000
    rw [e0]; dsimp only; omega
  | ⟨1, _⟩ =>
    show win1_1.index ⟨(i 0).val / 5000, ht⟩ 1 * 128 ≤ (i 1).val
      ∧ (i 1).val < win1_1.index ⟨(i 0).val / 5000, ht⟩ 1 * 128 + 128
    rw [e1]; omega

/-- The last point. -/
abbrev tLast : Fin cfg1.N := ⟨19, by rw [show cfg1.N = 20 from N_1]; omega⟩

/-- After the last point the first accumulator holds every column's whole sum. -/
theorem acc_sum (c : Dev nD) :
    (outsAt1 (F := Ideal) V c tLast.val tLast.isLt).2.1
      = fun i => Cert.Spec.colsum (Cert.Spec.relu (V c main_v43)) (i 1) := by
  funext j
  obtain ⟨u, q, rfl⟩ : ∃ (u : Fin 1) (q : Fin 128), j = ix2 u q := ⟨j 0, j 1, eq_ix2 j⟩
  exact ((outsAt_eq V c tLast.val tLast.isLt).2.1 u q).trans (psum_all _ q)

/-- And the second every column's whole sum of squares. -/
theorem acc_sumsq (c : Dev nD) :
    (outsAt1 (F := Ideal) V c tLast.val tLast.isLt).2.2
      = fun i => Cert.Spec.colsum (fun k => Cert.Spec.relu (V c main_v43) k * Cert.Spec.relu (V c main_v43) k) (i 1) := by
  funext j
  obtain ⟨u, q, rfl⟩ : ∃ (u : Fin 1) (q : Fin 128), j = ix2 u q := ⟨j 0, j 1, eq_ix2 j⟩
  exact ((outsAt_eq V c tLast.val tLast.isLt).2.2 u q).trans (psum_all _ q)

/-- The one write-back of the second result, at the last point, writes the whole one-row array. -/
theorem flushed_sum (c : Dev nD) (t : Fin cfg1.N) (hf : (cfg1.win 2).flush t = true) :
    (dat1 (F := Ideal) V c).flushed 2 t = ((cfg1.win 2).blk t).view.read (Elt Ideal)
      (fun i => Cert.Spec.colsum (Cert.Spec.relu (V c main_v43)) (i 1)) := by
  have hN : cfg1.N = 20 := N_1
  have h19 : t.val = 19 := by have := (flush1_2 t).mp hf; have := t.isLt; omega
  obtain rfl : t = tLast := Fin.ext h19
  show (cfg1.win 2).cut (grid1.coords tLast) ((dat1 (F := Ideal) V c).after 2 tLast) = _
  rw [after1_2, acc_sum]
  have hz' : (fun a => win1_2.index tLast a * main_v44_1.ty.shape.size a) = fun _ => 0 :=
    funext fun a => by fin_cases a <;> decide
  exact (Memref.read_access_unit_zero (Elt Ideal) main_v44_1 hz' (fun a => by rw [congrFun hz' a]; simp) _).symm

/-- The same for the third result. -/
theorem flushed_sumsq (c : Dev nD) (t : Fin cfg1.N) (hf : (cfg1.win 3).flush t = true) :
    (dat1 (F := Ideal) V c).flushed 3 t = ((cfg1.win 3).blk t).view.read (Elt Ideal)
      (fun i => Cert.Spec.colsum (fun k => Cert.Spec.relu (V c main_v43) k * Cert.Spec.relu (V c main_v43) k) (i 1)) := by
  have hN : cfg1.N = 20 := N_1
  have h19 : t.val = 19 := by have := (flush1_3 t).mp hf; have := t.isLt; omega
  obtain rfl : t = tLast := Fin.ext h19
  show (cfg1.win 3).cut (grid1.coords tLast) ((dat1 (F := Ideal) V c).after 3 tLast) = _
  rw [after1_3, acc_sumsq]
  have hz' : (fun a => win1_3.index tLast a * main_v44_2.ty.shape.size a) = fun _ => 0 :=
    funext fun a => by fin_cases a <;> decide
  exact (Memref.read_access_unit_zero (Elt Ideal) main_v44_2 hz' (fun a => by rw [congrFun hz' a]; simp) _).symm

/-- The last point's block of a one-row result is the whole array. -/
theorem cover_sum (i : S1x128.Idx) :
    ∃ t : Fin cfg1.N, (cfg1.win 2).flush t = true ∧ i ∈ ((cfg1.win 2).blk t).view.set := by
  refine ⟨tLast, (flush1_2 tLast).mpr rfl, ?_⟩
  show i ∈ ((View.whole main_v44_1).slice (win1_2.rect tLast)).set
  rw [View.set_slice_whole, Rect.mem_set_unit]
  intro a
  have h0 : (i 0 : Nat) < 1 := (i 0).isLt
  have h1 : (i 1 : Nat) < 128 := (i 1).isLt
  match a with
  | ⟨0, _⟩ =>
    show win1_2.index tLast 0 * win1_2.size 0 ≤ (i 0 : Nat)
      ∧ (i 0 : Nat) < win1_2.index tLast 0 * win1_2.size 0 + win1_2.xsize (grid1.coords tLast) 0
    rw [show win1_2.index tLast 0 * win1_2.size 0 = 0 from by decide +kernel,
      show win1_2.xsize (grid1.coords tLast) 0 = 1 from by decide +kernel]; omega
  | ⟨1, _⟩ =>
    show win1_2.index tLast 1 * win1_2.size 1 ≤ (i 1 : Nat)
      ∧ (i 1 : Nat) < win1_2.index tLast 1 * win1_2.size 1 + win1_2.xsize (grid1.coords tLast) 1
    rw [show win1_2.index tLast 1 * win1_2.size 1 = 0 from by decide +kernel,
      show win1_2.xsize (grid1.coords tLast) 1 = 128 from by decide +kernel]; omega

theorem cover_sumsq (i : S1x128.Idx) :
    ∃ t : Fin cfg1.N, (cfg1.win 3).flush t = true ∧ i ∈ ((cfg1.win 3).blk t).view.set := by
  refine ⟨tLast, (flush1_3 tLast).mpr rfl, ?_⟩
  show i ∈ ((View.whole main_v44_2).slice (win1_3.rect tLast)).set
  rw [View.set_slice_whole, Rect.mem_set_unit]
  intro a
  have h0 : (i 0 : Nat) < 1 := (i 0).isLt
  have h1 : (i 1 : Nat) < 128 := (i 1).isLt
  match a with
  | ⟨0, _⟩ =>
    show win1_3.index tLast 0 * win1_3.size 0 ≤ (i 0 : Nat)
      ∧ (i 0 : Nat) < win1_3.index tLast 0 * win1_3.size 0 + win1_3.xsize (grid1.coords tLast) 0
    rw [show win1_3.index tLast 0 * win1_3.size 0 = 0 from by decide +kernel,
      show win1_3.xsize (grid1.coords tLast) 0 = 1 from by decide +kernel]; omega
  | ⟨1, _⟩ =>
    show win1_3.index tLast 1 * win1_3.size 1 ≤ (i 1 : Nat)
      ∧ (i 1 : Nat) < win1_3.index tLast 1 * win1_3.size 1 + win1_3.xsize (grid1.coords tLast) 1
    rw [show win1_3.index tLast 1 * win1_3.size 1 = 0 from by decide +kernel,
      show win1_3.xsize (grid1.coords tLast) 1 = 128 from by decide +kernel]; omega

/-! ## The three result arrays -/

/-- The clamped array. -/
theorem final1_relu (c : Dev nD) :
    (dat1 (F := Ideal) V c).arrAt 1 cfg1.N = Cert.Spec.relu (V c main_v43) := by
  exact (dat1 (F := Ideal) V c).arrAt_eq_of_cover 1 _ (fun t _ => flushed_relu V c t) cover_relu

/-- The column sums, accumulated over the twenty row blocks. -/
theorem final1_sum (c : Dev nD) :
    (dat1 (F := Ideal) V c).arrAt 2 cfg1.N = fun i => Cert.Spec.colsum (Cert.Spec.relu (V c main_v43)) (i 1) := by
  exact (dat1 (F := Ideal) V c).arrAt_eq_of_cover 2 _ (flushed_sum V c) cover_sum

/-- The column sums of squares, accumulated over the twenty row blocks. -/
theorem final1_sumsq (c : Dev nD) :
    (dat1 (F := Ideal) V c).arrAt 3 cfg1.N
      = fun i => Cert.Spec.colsum (fun k => Cert.Spec.relu (V c main_v43) k * Cert.Spec.relu (V c main_v43) k) (i 1) := by
  exact (dat1 (F := Ideal) V c).arrAt_eq_of_cover 3 _ (flushed_sumsq V c) cover_sumsq

end Cert.KernelIdeal.KReg1

end
-- ==== Proof.KReg2.lean ====
/-
  The third kernel region's result array: each entry centred by its column's mean, scaled by the column's weight and inverse deviation, and shifted.
-/
import proofs.«101147_j4887672783235_1_alg».proof.Proof.Gen.KernelIdeal.Frame
import proofs.«101147_j4887672783235_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KReg2

open Idealize.ShloMosaic Idealize.ShloMosaic.TcCoe Idealize.SL.Sem Idealize.ShloMosaic.ValueIdx
open Idealize.ShloMosaic.Pipeline (Dat)
open Cert.KernelIdeal Cert.KernelIdeal.Gen

/-- Row `i`, column `j`: `g[j] · (r[i,j] − mean[j]) · rsqrt(var[j] + ε) + bt[j]`, the four column vectors stored as
    one-row arrays. -/
def normRow (r : FVec Ideal Cert.Spec.S100000x128 .f32) (mean var g bt : FVec Ideal Cert.Spec.S1x128 .f32) :
    FVec Ideal Cert.Spec.S100000x128 .f32 :=
  fun i => g (ix2 0 (i 1)) * (r i - mean (ix2 0 (i 1))) * Ideal.rsqrt (var (ix2 0 (i 1)) + Cert.Spec.cEps) + bt (ix2 0 (i 1))

/-! ## The body's stored value at an entry of its block -/

/-- A one-row vector spread over the block's rows reads, at row `p` and column `q`, the row's entry at `q`. -/
theorem spread_apply (v : FVec Ideal S1x128 .f32) (p : Fin 5000) (q : Fin 128) :
    broadcastTo S5000x128 v broadcasts_S1x128_S5000x128 (ix2 p q) = v (ix2 (0 : Fin 1) q) := by
  refine broadcastTo_apply v broadcasts_S1x128_S5000x128 (ix2 p q) (ix2 (0 : Fin 1) q) fun ax => ?_
  match ax with
  | ⟨0, _⟩ => rfl
  | ⟨1, _⟩ => rfl

/-- The stored value at row `p`, column `q` of the block: the weight's entry times the centred entry times the inverse
    deviation, plus the shift's entry. -/
theorem pay_apply (var g : FVec Ideal S1x128 .f32) (r : FVec Ideal S5000x128 .f32) (mean bt : FVec Ideal S1x128 .f32)
    (p : Fin 5000) (q : Fin 128) :
    k2_pay1 (F := Ideal) var g r mean bt (ix2 p q)
      = g (ix2 (0 : Fin 1) q) * (r (ix2 p q) - mean (ix2 (0 : Fin 1) q))
          * Ideal.rsqrt (var (ix2 (0 : Fin 1) q) + Cert.Spec.cEps) + bt (ix2 (0 : Fin 1) q) := by
  unfold k2_pay1
  simp only [shapeCast_self]
  unfold addf mulf subf rsqrt
  simp only [spread_apply]
  rfl

/-- The stored value at an entry `j` of the block against an entry `i` of the whole array in the same column, when the
    block of rows agrees there and the four one-row blocks are the four one-row arrays. -/
theorem pay_eq_normRow (var g : FVec Ideal S1x128 .f32) (r : FVec Ideal S5000x128 .f32) (mean bt : FVec Ideal S1x128 .f32)
    (R : FVec Ideal Cert.Spec.S100000x128 .f32) (Mean Var G Bt : FVec Ideal Cert.Spec.S1x128 .f32)
    (j : S5000x128.Idx) (i : Cert.Spec.S100000x128.Idx) (hcol : (i 1).val = (j 1).val) (hr : r j = R i)
    (hm : ∀ y, mean y = Mean y) (hv : ∀ y, var y = Var y) (hg : ∀ y, g y = G y) (hb : ∀ y, bt y = Bt y) :
    k2_pay1 (F := Ideal) var g r mean bt j = normRow R Mean Var G Bt i := by
  obtain ⟨p, q, rfl⟩ : ∃ (p : Fin 5000) (q : Fin 128), j = ix2 p q := ⟨j 0, j 1, eq_ix2 j⟩
  obtain ⟨a, b, rfl⟩ : ∃ (a : Fin 100000) (b : Fin 128), i = ix2 a b := ⟨i 0, i 1, eq_ix2 i⟩
  obtain rfl : b = q := Fin.ext hcol
  rw [pay_apply, hr, hm, hv, hg, hb]
  rfl

/-! ## The windows' blocks, read off their arrays -/

theorem hz : (![0, 0] : Fin 2 → Nat) = fun _ => 0 := funext fun a => by fin_cases a <;> rfl

/-- The index maps over the grid: the two windows of row blocks sit at block `(t, 0)` at point `t`, the four one-row
    windows at block `(0, 0)` at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The block of rows at point `t` is rows `5000 t … 5000 t + 4999` of its array. -/
theorem rows_apply (c : Dev nD) (t : Fin cfg2.N) (x : S5000x128.Idx) (k : S100000x128.Idx)
    (hk0 : (k 0).val = 5000 * t.val + (x 0).val) (hk1 : (k 1).val = (x 1).val) :
    (iblk2 (F := Ideal) V c 0 t : Vec Ideal S5000x128 .f32) x = (V c main_v44_0 : S100000x128.Idx → Elt Ideal .f32) k := by
  obtain ⟨e0, e1, -⟩ := idx_facts t
  unfold iblk2
  rw [View.read_apply]
  show V c main_v44_0 _ = V c main_v44_0 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The mean's one-row block is its whole array at every point. -/
theorem mean_apply (c : Dev nD) (t : Fin cfg2.N) (x : S1x128.Idx) :
    (iblk2 (F := Ideal) V c 1 t : Vec Ideal S1x128 .f32) x = (V c main_v46 : S1x128.Idx → Elt Ideal .f32) x := by
  obtain ⟨-, -, e0, e1, -⟩ := idx_facts t
  unfold iblk2
  rw [View.read_apply]
  show V c main_v46 _ = V c main_v46 _
  congr 1
  funext a
  apply Fin.ext
  match a with
  | ⟨0, _⟩ => show win2_1.index t 0 * 1 + 1 * (x 0).val = (x 0).val; rw [e0]; omega
  | ⟨1, _⟩ => show win2_1.index t 1 * 128 + 1 * (x 1).val = (x 1).val; rw [e1]; omega

/-- The variance's one-row block is its whole array at every point. -/
theorem var_apply (c : Dev nD) (t : Fin cfg2.N) (x : S1x128.Idx) :
    (iblk2 (F := Ideal) V c 2 t : Vec Ideal S1x128 .f32) x = (V c main_v50 : S1x128.Idx → Elt Ideal .f32) x := by
  obtain ⟨-, -, -, -, e0, e1, -⟩ := idx_facts t
  unfold iblk2
  rw [View.read_apply]
  show V c main_v50 _ = V c main_v50 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- The weight's one-row block is its whole array at every point. -/
theorem weight_apply (c : Dev nD) (t : Fin cfg2.N) (x : S1x128.Idx) :
    (iblk2 (F := Ideal) V c 3 t : Vec Ideal S1x128 .f32) x = (V c main_v51 : S1x128.Idx → Elt Ideal .f32) x := by
  obtain ⟨-, -, -, -, -, -, e0, e1, -⟩ := idx_facts t
  unfold iblk2
  rw [View.read_apply]
  show V c main_v51 _ = V c main_v51 _
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- The shift's one-row block is its whole array at every point. -/
theorem shift_apply (c : Dev nD) (t : Fin cfg2.N) (x : S1x128.Idx) :
    (iblk2 (F := Ideal) V c 4 t : Vec Ideal S1x128 .f32) x = (V c main_v52 : S1x128.Idx → Elt Ideal .f32) x := by
  obtain ⟨-, -, -, -, -, -, -, -, e0, e1, -⟩ := idx_facts t
  unfold iblk2
  rw [View.read_apply]
  show V c main_v52 _ = V c main_v52 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-! ## What each point writes back, and the array after the last point -/

/-- What point `t` writes back to the result array is block `t` of `normRow` of the five arrays as the region finds them. -/
theorem flushed_eq (c : Dev nD) (t : Fin cfg2.N) :
    (dat2 (F := Ideal) V c).flushed 5 t
      = ((cfg2.win 5).blk t).view.read (Elt Ideal)
          (normRow (V c main_v44_0) (V c main_v46) (V c main_v50) (V c main_v51) (V c main_v52)) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S1x128) hz]
  obtain ⟨-, -, -, -, -, -, -, -, -, -, e0, e1⟩ := idx_facts t
  funext j
  show k2_pay1 (F := Ideal) (iblk2 V c 2 t) (iblk2 V c 3 t) (iblk2 V c 0 t) (iblk2 V c 1 t) (iblk2 V c 4 t) j
    = normRow (V c main_v44_0) (V c main_v46) (V c main_v50) (V c main_v51) (V c main_v52) (((cfg2.win 5).blk t).view.emb j)
  have h0 : ((((cfg2.win 5).blk t).view.emb j : S100000x128.Idx) 0).val = 5000 * t.val + ((j : S5000x128.Idx) 0).val := by
    show win2_5.index t 0 * 5000 + 1 * ((j : S5000x128.Idx) 0).val = _
    rw [e0]; omega
  have h1 : ((((cfg2.win 5).blk t).view.emb j : S100000x128.Idx) 1).val = ((j : S5000x128.Idx) 1).val := by
    show win2_5.index t 1 * 128 + 1 * ((j : S5000x128.Idx) 1).val = _
    rw [e1]; omega
  exact pay_eq_normRow (iblk2 V c 2 t) (iblk2 V c 3 t) (iblk2 V c 0 t) (iblk2 V c 1 t) (iblk2 V c 4 t)
    (V c main_v44_0) (V c main_v46) (V c main_v50) (V c main_v51) (V c main_v52) j (((cfg2.win 5).blk t).view.emb j)
    h1 (rows_apply V c t j _ h0 h1) (mean_apply V c t) (var_apply V c t) (weight_apply V c t) (shift_apply V c t)

/-- An entry of the result array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v53).slice (win2_5.rect t)).set ↔ _
  rw [View.set_slice_whole, Rect.mem_set_unit]
  exact Iff.rfl

/-- Every entry of the result array is in the block of the point its row falls to: row `r` in block `r / 5000`. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by show _ < grid2.N; rw [N_2]; omega⟩, rfl⟩
  obtain ⟨-, -, -, -, -, -, -, -, -, -, e0, e1⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 128 ≤ (i 1).val ∧ (i 1).val < win2_5.index t (1 : Fin 2) * 128 + 128
    rw [e1]; omega

/-- After the region's twenty grid points its output array is `normRow` of the five input arrays as the region found
    them. -/
theorem final2 (c : Dev nD) :
    (dat2 (F := Ideal) V c).arrAt 5 cfg2.N
      = normRow (V c main_v44_0) (V c main_v46) (V c main_v50) (V c main_v51) (V c main_v52) :=
  (dat2 (F := Ideal) V c).arrAt_eq_of_cover 5 _ (fun t _ => flushed_eq V c t) covered

end Cert.KernelIdeal.KReg2

end
-- ==== Proof.KHost1.lean ====
/-
  The host operations between the first and second kernel regions are the aggregation of the specification.
-/
import proofs.«101147_j4887672783235_1_alg».proof.Proof.Gen.KernelIdeal.Frame
import proofs.«101147_j4887672783235_1_alg».proof.Proof.Spec
import Idealize.ShloMosaic.Lib.StableHlo.Run

set_option maxRecDepth 16384

noncomputable section

open scoped BigOperators

namespace Cert.KernelIdeal.KHost1

open Idealize.ShloMosaic Idealize.ShloMosaic.TcCoe Idealize.SL.Sem Idealize.ShloMosaic.ValueIdx
open Idealize.ShloMosaic.Pipeline (Dat)
open Cert.KernelIdeal Cert.KernelIdeal.Gen
open Idealize.ShloMosaic.StableHlo

/-- The degree count's scatter is the specification's: the same dimension numbers, and two proofs of one proposition. -/
theorem scat1_eq : scatter_S100000_S740000x1_S740000_n_0_0_1 = Cert.Spec.scat1 := rfl
/-- The gather of one scalar per edge is the specification's. -/
theorem gath1_eq : gather_S100000_S740000x1_S740000_n_0_n_n_0_1_1 = Cert.Spec.gath1 := rfl
/-- The gather of one row per edge is the specification's. -/
theorem gath2_eq : gather_S100000x128_S740000x1_S740000x128_1_0_n_n_0_1_1128 = Cert.Spec.gath2 := rfl
/-- The scatter of one row per edge is the specification's. -/
theorem scat2_eq : scatter_S100000x128_S740000x1_S740000x128_1_0_0_1 = Cert.Spec.scat2 := rfl

-- The array operations stay folded: both sides are the same composition of them, compared argument by argument.
attribute [local irreducible] Host.scatterAdd Host.gather Host.rsqrt concatenate extractStridedSlice shapeCast iotaInDim
  broadcastInDim mulf addf select cmpi addi constant constantI in
set_option maxHeartbeats 4000000 in
/-- The aggregated array as one composition of array operations over the three arguments. Each operation's result
    is its function of its operands' contents, and every other buffer keeps what it held; read backwards from the
    sum, that gives: the sources and destinations (a row of the edge array, then the self-loops), the degree (a
    scatter-add of ones over the destinations), its inverse square root gathered at both ends and multiplied, the
    rows gathered at the sources and scaled, their scatter-add over the destinations, and the bias added. The
    specification's aggregation unfolds to the same composition over records with the same dimension numbers. -/
theorem after_agg (W : Valuation τ sig (Elt Ideal)) :
    StableHlo.after (hostOps1 (F := Ideal)) W (Proc.devRef .tc main_v43)
      = Cert.Spec.aggF (F := Ideal) (W (Proc.devRef .tc main_v0)) (W (Proc.devRef .tc main_arg1)) (W (Proc.devRef .tc main_arg3)) := by
  after_results_simp
  simp only [Cert.Spec.aggF, Cert.Spec.normF, Cert.Spec.degF, Cert.Spec.srcIdx, Cert.Spec.dstIdx, Cert.Spec.wrapIdx,
    scat1_eq, gath1_eq, gath2_eq, scat2_eq]
  rfl

/-- From any buffer contents `W`, after the fifty-two host operations the aggregated array is the specification's
    aggregation of the transformed features, the edge array and the bias as `W` has them. -/
theorem agg_eq (W : Valuation τ sig (Elt Ideal)) :
    StableHlo.after (hostOps1 (F := Ideal)) W (Proc.devRef .tc main_v43)
      = Cert.Spec.aggF (F := Ideal) (W (Proc.devRef .tc main_v0)) (W (Proc.devRef .tc main_arg1)) (W (Proc.devRef .tc main_arg3)) :=
  after_agg W

end Cert.KernelIdeal.KHost1

end
-- ==== Proof.KVal.lean ====
/-
  The idealized kernel program's result as one function of its arguments.

  Its run passes through five stretches: the matrix product (first region), the aggregation (host operations),
  the clamp with the column sums and sums of squares (second region), the column means and variances and the
  one-row copies of the scale and shift vectors (host operations), and the normalisation (third region).  Each
  stretch's result is read here off the contents the stretch before left, down to the launch contents; composed,
  they are the specification's `G` of the six argument arrays.
-/
import proofs.«101147_j4887672783235_1_alg».proof.Proof.Gen.KernelIdeal.Frame
import proofs.«101147_j4887672783235_1_alg».proof.Proof.Spec
import proofs.«101147_j4887672783235_1_alg».proof.Proof.KReg0
import proofs.«101147_j4887672783235_1_alg».proof.Proof.KReg1
import proofs.«101147_j4887672783235_1_alg».proof.Proof.KReg2
import proofs.«101147_j4887672783235_1_alg».proof.Proof.KHost1
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.KVal

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ) (ρ : Dev nD → PrngReg)

/-! ## The second stretch of host operations, from any contents -/

/-- The column means: the column sums divided by the node count. -/
theorem host2_mean (W : Valuation τ sig (Elt Ideal)) :
    (after (hostOps2 (F := Ideal)) W (Proc.devRef .tc main_v46) : FVec Ideal S1x128 .f32)
      = Host.divf (F := Ideal) (W (Proc.devRef .tc main_v44_1))
          (broadcastInDim S1x128 ![] bcast_S_S1x128 (constant (F := Ideal) S_ .f32 0x47C35000#32)) := by
  after_results

/-- The column variances: the sums of squares divided by the node count, minus the squared means. -/
theorem host2_var (W : Valuation τ sig (Elt Ideal)) :
    (after (hostOps2 (F := Ideal)) W (Proc.devRef .tc main_v50) : FVec Ideal S1x128 .f32)
      = subf (F := Ideal) (Host.divf (F := Ideal) (W (Proc.devRef .tc main_v44_2))
          (broadcastInDim S1x128 ![] bcast_S_S1x128 (constant (F := Ideal) S_ .f32 0x47C35000#32)))
        (mulf (F := Ideal) (Host.divf (F := Ideal) (W (Proc.devRef .tc main_v44_1))
            (broadcastInDim S1x128 ![] bcast_S_S1x128 (constant (F := Ideal) S_ .f32 0x47C35000#32)))
          (Host.divf (F := Ideal) (W (Proc.devRef .tc main_v44_1))
            (broadcastInDim S1x128 ![] bcast_S_S1x128 (constant (F := Ideal) S_ .f32 0x47C35000#32)))) := by
  after_results

/-- The scale vector as one row. -/
theorem host2_gamma (W : Valuation τ sig (Elt Ideal)) :
    (after (hostOps2 (F := Ideal)) W (Proc.devRef .tc main_v51) : FVec Ideal S1x128 .f32)
      = shapeCast S1x128 (W (Proc.devRef .tc main_arg4)) shapeCasts_S128_S1x128 := by
  after_results
  rfl

/-- The shift vector as one row. -/
theorem host2_beta (W : Valuation τ sig (Elt Ideal)) :
    (after (hostOps2 (F := Ideal)) W (Proc.devRef .tc main_v52) : FVec Ideal S1x128 .f32)
      = shapeCast S1x128 (W (Proc.devRef .tc main_arg5)) shapeCasts_S128_S1x128 := by
  after_results
  rfl

/-- The clamped array is not touched. -/
theorem host2_relu (W : Valuation τ sig (Elt Ideal)) :
    after (hostOps2 (F := Ideal)) W (Proc.devRef .tc main_v44_0) = W (Proc.devRef .tc main_v44_0) := by
  after_results

/-- The first stretch of host operations writes neither the scale nor the shift vector. -/
theorem host1_arg4 (W : Valuation τ sig (Elt Ideal)) :
    after (hostOps1 (F := Ideal)) W (Proc.devRef .tc main_arg4) = W (Proc.devRef .tc main_arg4) :=
  StableHlo.after_of_forall_not_mem (b := Proc.devRef .tc main_arg4) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem host1_arg5 (W : Valuation τ sig (Elt Ideal)) :
    after (hostOps1 (F := Ideal)) W (Proc.devRef .tc main_arg5) = W (Proc.devRef .tc main_arg5) :=
  StableHlo.after_of_forall_not_mem (b := Proc.devRef .tc main_arg5) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The contents at each boundary, down to the launch contents -/

/-- The six argument arrays as launched. -/
abbrev aX (c : Dev nD) : FVec Ideal Cert.Spec.S100000x128 .f32 := m ((c : Thread nD τ).loc main_arg0)
abbrev aE (c : Dev nD) : IVec Cert.Spec.S2x640000 32 := m ((c : Thread nD τ).loc main_arg1)
abbrev aW (c : Dev nD) : FVec Ideal Cert.Spec.S128x128 .f32 := m ((c : Thread nD τ).loc main_arg2)
abbrev aB (c : Dev nD) : FVec Ideal Cert.Spec.S128 .f32 := m ((c : Thread nD τ).loc main_arg3)
abbrev aG (c : Dev nD) : FVec Ideal Cert.Spec.S128 .f32 := m ((c : Thread nD τ).loc main_arg4)
abbrev aS (c : Dev nD) : FVec Ideal Cert.Spec.S128 .f32 := m ((c : Thread nD τ).loc main_arg5)

/-- The clamped aggregation of the transformed features: what the second region leaves in its first output. -/
abbrev R (c : Dev nD) : FVec Ideal Cert.Spec.S100000x128 .f32 :=
  Cert.Spec.relu (Cert.Spec.aggF (F := Ideal) (Cert.Spec.hmm (aX m c) (aW m c)) (aE m c) (aB m c))

/-- After the first region: the transformed features. -/
theorem w1_h (c : Dev nD) :
    (W1 m ρ c (Proc.devRef .tc main_v0) : FVec Ideal Cert.Spec.S100000x128 .f32) = Cert.Spec.hmm (aX m c) (aW m c) :=
  (W1_arr m ρ c 2).trans (KReg0.final0 (V0 m ρ) c)

/-- After the first stretch of host operations: the aggregation. -/
theorem w2_agg (c : Dev nD) :
    (W2 m ρ c (Proc.devRef .tc main_v43) : FVec Ideal Cert.Spec.S100000x128 .f32)
      = Cert.Spec.aggF (F := Ideal) (Cert.Spec.hmm (aX m c) (aW m c)) (aE m c) (aB m c) := by
  refine (KHost1.agg_eq (W1 m ρ c)).trans ?_
  rw [w1_h m ρ c, W1_of_ne m ρ c main_arg1 (by decide), W1_of_ne m ρ c main_arg3 (by decide)]

/-- After the second region: the clamped array, and each column's sum and sum of squares. -/
theorem w3_relu (c : Dev nD) :
    (W3 m ρ c (Proc.devRef .tc main_v44_0) : FVec Ideal Cert.Spec.S100000x128 .f32) = R m c := by
  refine (W3_arr m ρ c 1).trans ((KReg1.final1_relu (V2 m ρ) c).trans ?_)
  show Cert.Spec.relu (W2 m ρ c (Proc.devRef .tc main_v43)) = _
  rw [w2_agg m ρ c]
theorem w3_sum (c : Dev nD) :
    (W3 m ρ c (Proc.devRef .tc main_v44_1) : FVec Ideal Cert.Spec.S1x128 .f32)
      = fun i => Cert.Spec.colsum (R m c) (i 1) :=
  (W3_arr m ρ c 2).trans ((KReg1.final1_sum (V2 m ρ) c).trans
    (congrArg (fun a : FVec Ideal Cert.Spec.S100000x128 .f32 =>
      fun i : Cert.Spec.S1x128.Idx => Cert.Spec.colsum (Cert.Spec.relu a) (i 1)) (w2_agg m ρ c)))
theorem w3_sumsq (c : Dev nD) :
    (W3 m ρ c (Proc.devRef .tc main_v44_2) : FVec Ideal Cert.Spec.S1x128 .f32)
      = fun i => Cert.Spec.colsum (fun k => R m c k * R m c k) (i 1) :=
  (W3_arr m ρ c 3).trans ((KReg1.final1_sumsq (V2 m ρ) c).trans
    (congrArg (fun a : FVec Ideal Cert.Spec.S100000x128 .f32 =>
      fun i : Cert.Spec.S1x128.Idx => Cert.Spec.colsum (fun k => Cert.Spec.relu a k * Cert.Spec.relu a k) (i 1))
      (w2_agg m ρ c)))

/-- The scale and shift vectors reach the second stretch of host operations as launched. -/
theorem w3_arg4 (c : Dev nD) : W3 m ρ c (Proc.devRef .tc main_arg4) = aG m c :=
  (W3_of_ne m ρ c main_arg4 (by decide)).trans ((host1_arg4 (W1 m ρ c)).trans (W1_of_ne m ρ c main_arg4 (by decide)))
theorem w3_arg5 (c : Dev nD) : W3 m ρ c (Proc.devRef .tc main_arg5) = aS m c :=
  (W3_of_ne m ρ c main_arg5 (by decide)).trans ((host1_arg5 (W1 m ρ c)).trans (W1_of_ne m ρ c main_arg5 (by decide)))

/-! ## The third region's five inputs -/

theorem v4_relu (c : Dev nD) : (V4 m ρ c main_v44_0 : FVec Ideal Cert.Spec.S100000x128 .f32) = R m c :=
  (host2_relu (W3 m ρ c)).trans (w3_relu m ρ c)

/-- The column means, as one row. -/
theorem v4_mean (c : Dev nD) :
    (V4 m ρ c main_v46 : FVec Ideal Cert.Spec.S1x128 .f32) = fun i => Cert.Spec.meanC (R m c) (i 1) := by
  refine (host2_mean (W3 m ρ c)).trans ?_
  rw [w3_sum m ρ c]
  rfl

/-- The column variances, as one row. -/
theorem v4_var (c : Dev nD) :
    (V4 m ρ c main_v50 : FVec Ideal Cert.Spec.S1x128 .f32) = fun i => Cert.Spec.varK (R m c) (i 1) := by
  refine (host2_var (W3 m ρ c)).trans ?_
  rw [w3_sum m ρ c, w3_sumsq m ρ c]
  rfl

/-- A vector of 128 entries cast to one row reads, at column `j` of its one row, the vector's entry `j`. -/
theorem row_cast (v : FVec Ideal Cert.Spec.S128 .f32) (h : Cert.Spec.S128.ShapeCasts Cert.Spec.S1x128) :
    shapeCast Cert.Spec.S1x128 v h = fun i => v (ix1 (i 1)) := by
  funext i
  refine shapeCast_apply v h i (ix1 (i 1)) ?_
  rw [Shape.rowMajor_val_two, Shape.rowMajor_val_one]
  have h0 : (i 0).val < 1 := (i 0).isLt
  show (i 1).val = (i 0).val * 128 + (i 1).val
  omega

theorem v4_gamma (c : Dev nD) :
    (V4 m ρ c main_v51 : FVec Ideal Cert.Spec.S1x128 .f32) = fun i => aG m c (ix1 (i 1)) := by
  refine (host2_gamma (W3 m ρ c)).trans ?_
  rw [w3_arg4 m ρ c]
  exact row_cast (aG m c) shapeCasts_S128_S1x128

theorem v4_beta (c : Dev nD) :
    (V4 m ρ c main_v52 : FVec Ideal Cert.Spec.S1x128 .f32) = fun i => aS m c (ix1 (i 1)) := by
  refine (host2_beta (W3 m ρ c)).trans ?_
  rw [w3_arg5 m ρ c]
  exact row_cast (aS m c) shapeCasts_S128_S1x128

/-! ## The result -/

/-- The result buffer's final contents are the specification's function of the launch contents of the six
    arguments. -/
theorem result (c : Dev nD) :
    (W5 m ρ c (Proc.devRef .tc main_v53) : FVec Ideal Cert.Spec.S100000x128 .f32)
      = Cert.Spec.G (aX m c) (aE m c) (aW m c) (aB m c) (aG m c) (aS m c) := by
  refine (W5_arr m ρ c 5).trans ((KReg2.final2 (V4 m ρ) c).trans ?_)
  rw [v4_relu m ρ c, v4_mean m ρ c, v4_var m ρ c, v4_gamma m ρ c, v4_beta m ρ c]
  rfl

end Cert.KernelIdeal.KVal

end
-- ==== Proof.RRead.lean ====
/-
  What the reference program computes, read index by index.

  `refTerm` is the composition, operation for operation and in data-flow order, of the pure functions of the
  reference program's statements: the matrix product of the node features and the weights, the aggregation over the
  edges with its degree normalisation and bias (`refAgg`), the clamp at zero, and the column normalisation by mean and
  variance, scaled and shifted (`refTail`).  `refTerm_eq` reads it at the extended reals: it is the specification's
  `outR` of the clamped aggregation of the product, the variance being the mean of the squared deviations.
-/
import proofs.«101147_j4887672783235_1_alg».proof.Proof.Gen.ReferenceIdeal
import proofs.«101147_j4887672783235_1_alg».proof.Proof.Spec
import proofs.«101147_j4887672783235_1_alg».proof.Proof.LibContraction
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

set_option maxRecDepth 16384

noncomputable section

open scoped BigOperators

namespace Cert.ReferenceIdeal.RRead

open Cert.ReferenceIdeal Cert.ReferenceIdeal.Facts₀ Idealize.ShloMosaic Idealize.ShloMosaic.ValueIdx

/-! ## The reference's value as one term -/

section
variable {F : FTy → Type} [FloatOps F]

/-- The edge list's sources: row 0 of the edge array, then the self-loops. -/
def refSrc (ei : IVec S2x640000 32) : IVec S740000 32 :=
  concatenate S740000 0 [⟨S640000, shapeCast S640000 (extractStridedSlice S1x640000 ![0, 0] ei slices_S2x640000_S1x640000_0_0) shapeCasts_S1x640000_S640000⟩,
    ⟨S100000, iotaInDim S100000 32 0⟩] concatenates_S640000_S100000_S740000_d0
/-- The edge list's destinations: row 1 of the edge array, then the self-loops. -/
def refDst (ei : IVec S2x640000 32) : IVec S740000 32 :=
  concatenate S740000 0 [⟨S640000, shapeCast S640000 (extractStridedSlice S1x640000 ![1, 0] ei slices_S2x640000_S1x640000_1_0) shapeCasts_S1x640000_S640000⟩,
    ⟨S100000, iotaInDim S100000 32 0⟩] concatenates_S640000_S100000_S740000_d0
/-- A gather's index column: a negative index counts from the end. -/
def refWrap (v : IVec S740000 32) : IVec S740000x1 32 :=
  broadcastInDim S740000x1 ![0] bcast_S740000_S740000x1_0
    (select (cmpi .slt v (broadcastInDim S740000 ![] bcast_S_S740000 (constantI S_ 32 0#32)))
      (addi v (broadcastInDim S740000 ![] bcast_S_S740000 (constantI S_ 32 100000#32))) v)
/-- Each node's degree: a scatter-add of ones over the destinations. -/
def refDeg (ei : IVec S2x640000 32) : FVec F S100000 .f32 :=
  Host.scatterAdd scatter_S100000_S740000x1_S740000_n_0_0_1
    (broadcastInDim S100000 ![] bcast_S_S100000 (constant S_ .f32 0x00000000#32))
    (broadcastInDim S740000x1 ![0] bcast_S740000_S740000x1_0 (refDst ei))
    (broadcastInDim S740000 ![] bcast_S_S740000 (constant S_ .f32 0x3F800000#32))
/-- Each edge's weight: the inverse square roots of its two ends' degrees, multiplied. -/
def refNorm (ei : IVec S2x640000 32) : FVec F S740000 .f32 :=
  mulf (Host.gather gather_S100000_S740000x1_S740000_n_0_n_n_0_1_1 (Host.rsqrt (refDeg (F := F) ei)) (refWrap (refSrc ei)))
    (Host.gather gather_S100000_S740000x1_S740000_n_0_n_n_0_1_1 (Host.rsqrt (refDeg (F := F) ei)) (refWrap (refDst ei)))
/-- The aggregation of the transformed features `h` over the edges, then the bias. -/
def refAgg (h : FVec F S100000x128 .f32) (ei : IVec S2x640000 32) (b : FVec F S128 .f32) : FVec F S100000x128 .f32 :=
  addf
    (Host.scatterAdd scatter_S100000x128_S740000x1_S740000x128_1_0_0_1
      (broadcastInDim S100000x128 ![] bcast_S_S100000x128 (constant S_ .f32 0x00000000#32))
      (broadcastInDim S740000x1 ![0] bcast_S740000_S740000x1_0 (refDst ei))
      (mulf (Host.gather gather_S100000x128_S740000x1_S740000x128_1_0_n_n_0_1_1128 h (refWrap (refSrc ei)))
        (broadcastInDim S740000x128 ![0, 1] bcast_S740000x1_S740000x128_0_1
          (broadcastInDim S740000x1 ![0] bcast_S740000_S740000x1_0 (refNorm (F := F) ei)))))
    (broadcastInDim S100000x128 ![0, 1] bcast_S1x128_S100000x128_0_1 (broadcastInDim S1x128 ![1] bcast_S128_S1x128_1 b))

/-- The column means: the column sums divided by the node count. -/
def refMean (r : FVec F S100000x128 .f32) : FVec F S128 .f32 :=
  Host.divf (Host.reduceAdd r (constant S_ .f32 0x00000000#32) reducesTo_S100000x128_S128_d0 h_S_)
    (broadcastInDim S128 ![] bcast_S_S128 (constant S_ .f32 0x47C35000#32))
/-- The variance's own column means, spread over the rows. -/
def refVarMean (r : FVec F S100000x128 .f32) : FVec F S100000x128 .f32 :=
  broadcastInDim S100000x128 ![0, 1] bcast_S1x128_S100000x128_0_1
    (Host.divf
      (broadcastInDim S1x128 ![1] bcast_S128_S1x128_1
        (Host.reduceAdd r (constant S_ .f32 0x00000000#32) reducesTo_S100000x128_S128_d0 h_S_))
      (broadcastInDim S1x128 ![] bcast_S_S1x128 (constant S_ .f32 0x47C35000#32)))
/-- The variance's normaliser: the node count less the correction `0`. -/
def refVarN : FVec F S_ .f32 :=
  subf (constant S_ .f32 0x47C35000#32) (sitofp .f32 (constantI S_ 32 0#32))
/-- The column variances: the sum of the squared deviations over the normaliser where that is positive. -/
def refVar (r : FVec F S100000x128 .f32) : FVec F S128 .f32 :=
  select (broadcastInDim S128 ![] bcast_S_S128 (cmpf .ogt (refVarN (F := F)) (constant S_ .f32 0x00000000#32)))
    (Host.divf
      (Host.reduceAdd (mulf (subf r (refVarMean r)) (subf r (refVarMean r))) (constant S_ .f32 0x00000000#32)
        reducesTo_S100000x128_S128_d0 h_S_)
      (broadcastInDim S128 ![] bcast_S_S128 (refVarN (F := F))))
    (broadcastInDim S128 ![] bcast_S_S128 (id (constant S_ .f32 0x7FC00000#32)))
/-- Everything after the clamp: each column normalised by its mean and variance, scaled and shifted. -/
def refTail (r : FVec F S100000x128 .f32) (γ β : FVec F S128 .f32) : FVec F S100000x128 .f32 :=
  addf
    (mulf
      (mulf (broadcastInDim S100000x128 ![0, 1] bcast_S1x128_S100000x128_0_1 (broadcastInDim S1x128 ![1] bcast_S128_S1x128_1 γ))
        (subf r (broadcastInDim S100000x128 ![0, 1] bcast_S1x128_S100000x128_0_1
          (broadcastInDim S1x128 ![1] bcast_S128_S1x128_1 (refMean r)))))
      (broadcastInDim S100000x128 ![0, 1] bcast_S1x128_S100000x128_0_1
        (broadcastInDim S1x128 ![1] bcast_S128_S1x128_1
          (Host.rsqrt (addf (refVar r) (broadcastInDim S128 ![] bcast_S_S128 (constant S_ .f32 0x3727C5AC#32)))))))
    (broadcastInDim S100000x128 ![0, 1] bcast_S1x128_S100000x128_0_1 (broadcastInDim S1x128 ![1] bcast_S128_S1x128_1 β))

/-- The reference's result as one function of its six arguments. -/
def refTerm (x : FVec F S100000x128 .f32) (ei : IVec S2x640000 32) (W : FVec F S128x128 .f32)
    (b γ β : FVec F S128 .f32) : FVec F S100000x128 .f32 :=
  refTail
    (maximumf (refAgg (Host.dotGeneral dot_S100000x128_S128x128_S100000x128_1_0_0_1_n_n none x W) ei b)
      (broadcastInDim S100000x128 ![] bcast_S_S100000x128 (constant S_ .f32 0x00000000#32)))
    γ β
end

/-! ## Its reading at the extended reals -/

/-! ### The shape records are the specification's -/

theorem scat1_eq : scatter_S100000_S740000x1_S740000_n_0_0_1 = Cert.Spec.scat1 := rfl
theorem gath1_eq : gather_S100000_S740000x1_S740000_n_0_n_n_0_1_1 = Cert.Spec.gath1 := rfl
theorem gath2_eq : gather_S100000x128_S740000x1_S740000x128_1_0_n_n_0_1_1128 = Cert.Spec.gath2 := rfl
theorem scat2_eq : scatter_S100000x128_S740000x1_S740000x128_1_0_0_1 = Cert.Spec.scat2 := rfl

/-! ### The aggregation is the specification's, operation for operation -/

section
variable {F : FTy → Type} [FloatOps F]

attribute [local irreducible] Host.scatterAdd Host.gather Host.rsqrt concatenate extractStridedSlice shapeCast
  iotaInDim broadcastInDim in
theorem refAgg_eq (h : FVec F S100000x128 .f32) (ei : IVec S2x640000 32) (b : FVec F S128 .f32) :
    refAgg h ei b = Cert.Spec.aggF h ei b := rfl

end

/-! ### The matrix product -/

theorem dot_eq (x : FVec Ideal S100000x128 .f32) (W : FVec Ideal S128x128 .f32) :
    Host.dotGeneral dot_S100000x128_S128x128_S100000x128_1_0_0_1_n_n none x W = Cert.Spec.hmm x W := by
  funext i
  have hc : dot_S100000x128_S128x128_S100000x128_1_0_0_1_n_n.lhsContracting = [1] := rfl
  have hc' : dot_S100000x128_S128x128_S100000x128_1_0_0_1_n_n.rhsContracting = [0] := rfl
  have hb : dot_S100000x128_S128x128_S100000x128_1_0_0_1_n_n.lhsBatch = [] := rfl
  have hb' : dot_S100000x128_S128x128_S100000x128_1_0_0_1_n_n.rhsBatch = [] := rfl
  have hn : dot_S100000x128_S128x128_S100000x128_1_0_0_1_n_n.lhsNonContracting = [0] := rfl
  have hn' : dot_S100000x128_S128x128_S100000x128_1_0_0_1_n_n.rhsNonContracting = [1] := rfl
  show FloatOps.dotGeneral dot_S100000x128_S128x128_S100000x128_1_0_0_1_n_n none .single x W i = _
  rw [Ideal.dotGeneral_apply, Cert.Lib.Contraction.sum_contr _ hc 128 rfl]
  unfold Cert.Spec.hmm
  refine Finset.sum_congr rfl fun k _ => ?_
  have e1 : dot_S100000x128_S128x128_S100000x128_1_0_0_1_n_n.lhsIdx i
      ((Cert.Lib.Contraction.contrFin _ hc 128 rfl).symm k) = ix2 (i 0) k := by
    funext a
    match a with
    | ⟨0, _⟩ => exact Fin.ext (Cert.Lib.Contraction.lhs_free _ hb hn i _ (by decide))
    | ⟨1, _⟩ => exact Fin.ext (Cert.Lib.Contraction.lhs_contracted _ hc 128 rfl i k)
  have e2 : dot_S100000x128_S128x128_S100000x128_1_0_0_1_n_n.rhsIdx i
      ((Cert.Lib.Contraction.contrFin _ hc 128 rfl).symm k) = ix2 k (i 1) := by
    funext a
    match a with
    | ⟨0, _⟩ => exact Fin.ext (Cert.Lib.Contraction.rhs_contracted _ hc hc' 128 rfl i k)
    | ⟨1, _⟩ => exact Fin.ext (Cert.Lib.Contraction.rhs_free _ hb hb' hn hn' i _ (by decide))
  rw [e1, e2]
  rfl

/-! ### The clamp -/

theorem relu_eq (a : FVec Ideal S100000x128 .f32) :
    maximumf a (broadcastInDim S100000x128 ![] bcast_S_S100000x128 (constant S_ .f32 0x00000000#32))
      = Cert.Spec.relu a := by
  funext i
  show max (a i) (Ideal.ofBits .f32 0x00000000#32) = max (a i) 0
  rw [Ideal.ofBits_zero_f32]

/-! ### The normalisation, index by index -/

/-- A vector laid along one row, read at a column, is the vector there. -/
theorem bcRow_apply {α : Type} (v : S128.Idx → α) (j : Fin 128) :
    broadcastInDim S1x128 ![1] bcast_S128_S1x128_1 v (ix2 (0 : Fin 1) j) = v (ix1 j) := by
  refine broadcastInDim_apply ![1] bcast_S128_S1x128_1 v (ix2 (0 : Fin 1) j) (ix1 j) ?_
  intro a
  match a with
  | ⟨0, _⟩ =>
    show j.val = if (128 : ℕ) = 1 then 0 else j.val
    simp

/-- A vector laid along every row, read at a row and a column, is the vector at the column. -/
theorem bcRows_apply {α : Type} (v : S128.Idx → α) (i : Fin 100000) (j : Fin 128) :
    broadcastInDim S100000x128 ![0, 1] bcast_S1x128_S100000x128_0_1
      (broadcastInDim S1x128 ![1] bcast_S128_S1x128_1 v) (ix2 i j) = v (ix1 j) :=
  (broadcastInDim_oneRow_apply bcast_S1x128_S100000x128_0_1 _ i j).trans (bcRow_apply v j)

/-- The host's inverse square root at an index is the extended reals' of the element. -/
theorem hostRsqrt_apply {s : Shape} (v : FVec Ideal s .f32) (i : s.Idx) : Host.rsqrt v i = Ideal.rsqrt (v i) := rfl

/-- The feature array's shape with its row axis removed is the column vector's. -/
theorem red : S100000x128.Reduces [0] S128 := by decide

/-- The host's sum over the rows from zero, read at a column, is the column's sum. -/
theorem colsum_read (r : FVec Ideal S100000x128 .f32) (j : Fin 128) :
    Host.reduceAdd r (constant S_ .f32 0x00000000#32) reducesTo_S100000x128_S128_d0 h_S_ (ix1 j)
      = Cert.Spec.colsum r j := by
  show Ideal.hostReduceAdd reducesTo_S100000x128_S128_d0 r (Ideal.ofBits .f32 0x00000000#32) (ix1 j) = _
  rw [Ideal.hostReduceAdd_single _ red, Ideal.ofBits_zero_f32, zero_add]
  unfold Cert.Spec.colsum
  refine Finset.sum_congr rfl fun k _ => congrArg r ?_
  funext a
  match a with
  | ⟨0, _⟩ => rfl
  | ⟨1, _⟩ => rfl

/-- The column means are the specification's. -/
theorem refMean_apply (r : FVec Ideal S100000x128 .f32) (j : Fin 128) : refMean r (ix1 j) = Cert.Spec.meanC r j := by
  show Ideal.div (Host.reduceAdd r (constant S_ .f32 0x00000000#32) reducesTo_S100000x128_S128_d0 h_S_ (ix1 j))
    (Ideal.ofBits .f32 0x47C35000#32) = _
  rw [colsum_read]
  rfl

/-- So are the means the variance subtracts. -/
theorem refVarMean_apply (r : FVec Ideal S100000x128 .f32) (i : Fin 100000) (j : Fin 128) :
    refVarMean r (ix2 i j) = Cert.Spec.meanC r j := by
  unfold refVarMean
  rw [broadcastInDim_oneRow_apply]
  show Ideal.div (broadcastInDim S1x128 ![1] bcast_S128_S1x128_1
      (Host.reduceAdd r (constant S_ .f32 0x00000000#32) reducesTo_S100000x128_S128_d0 h_S_) (ix2 (0 : Fin 1) j))
    (Ideal.ofBits .f32 0x47C35000#32) = _
  rw [bcRow_apply, colsum_read]
  rfl

/-- The squared deviations, as the specification writes them. -/
theorem sqdev_eq (r : FVec Ideal S100000x128 .f32) :
    mulf (subf r (refVarMean r)) (subf r (refVarMean r))
      = fun i => (r i - Cert.Spec.meanC r (i 1)) * (r i - Cert.Spec.meanC r (i 1)) := by
  funext idx
  obtain ⟨i, j, rfl⟩ : ∃ (i : Fin 100000) (j : Fin 128), idx = ix2 i j := ⟨idx 0, idx 1, eq_ix2 idx⟩
  show (r (ix2 i j) - refVarMean r (ix2 i j)) * (r (ix2 i j) - refVarMean r (ix2 i j)) = _
  rw [refVarMean_apply]

/-- The node count's word is the number one hundred thousand. -/
theorem cN_eq : Cert.Spec.cN = ((100000 : ℝ) : EReal) := by
  unfold Cert.Spec.cN
  simp [Ideal.ofBits, Ideal.ieee, -EReal.coe_mul]
  norm_num

theorem cN_pos : (0 : EReal) < Cert.Spec.cN := by
  rw [cN_eq]
  exact_mod_cast (by norm_num : (0 : ℝ) < 100000)

/-- The variance's normaliser is the node count: the correction subtracted is zero. -/
theorem refVarN_val (idx : S_.Idx) : refVarN (F := Ideal) idx = Cert.Spec.cN := by
  show Cert.Spec.cN - ((((0#32 : BitVec 32).toInt : ℤ) : ℝ) : EReal) = Cert.Spec.cN
  simp

/-- The column variances are the specification's: the guard holds, so the quotient is taken. -/
theorem refVar_apply (r : FVec Ideal S100000x128 .f32) (j : Fin 128) : refVar r (ix1 j) = Cert.Spec.varR r j := by
  unfold refVar
  rw [select_apply]
  have hp : broadcastInDim S128 ![] bcast_S_S128
      (cmpf .ogt (refVarN (F := Ideal)) (constant S_ .f32 0x00000000#32)) (ix1 j) = 1#1 := by
    show Ideal.cmp .ogt (refVarN (F := Ideal) _) (Ideal.ofBits .f32 0x00000000#32) = 1#1
    rw [refVarN_val, Ideal.ofBits_zero_f32]
    show BitVec.ofBool (decide ((0 : EReal) < Cert.Spec.cN)) = 1#1
    rw [decide_eq_true cN_pos]
    rfl
  rw [hp, select_one]
  show Ideal.div (Host.reduceAdd (mulf (subf r (refVarMean r)) (subf r (refVarMean r)))
      (constant S_ .f32 0x00000000#32) reducesTo_S100000x128_S128_d0 h_S_ (ix1 j)) (refVarN (F := Ideal) _) = _
  rw [refVarN_val, sqdev_eq, colsum_read]
  rfl

/-- Everything after the clamp is the specification's normalisation with the variance as the mean of the squared
    deviations. -/
theorem refTail_eq (r : FVec Ideal S100000x128 .f32) (γ β : FVec Ideal S128 .f32) :
    refTail r γ β = Cert.Spec.outR r γ β := by
  funext idx
  obtain ⟨i, j, rfl⟩ : ∃ (i : Fin 100000) (j : Fin 128), idx = ix2 i j := ⟨idx 0, idx 1, eq_ix2 idx⟩
  unfold refTail
  rw [addf_apply, mulf_apply, mulf_apply, subf_apply, bcRows_apply, bcRows_apply, bcRows_apply, bcRows_apply,
    refMean_apply, hostRsqrt_apply, addf_apply, refVar_apply]
  rfl

theorem refTerm_eq (x : FVec Ideal S100000x128 .f32) (ei : IVec S2x640000 32) (W : FVec Ideal S128x128 .f32)
    (b γ β : FVec Ideal S128 .f32) :
    refTerm (F := Ideal) x ei W b γ β
      = Cert.Spec.outR (Cert.Spec.relu (Cert.Spec.aggF (F := Ideal) (Cert.Spec.hmm x W) ei b)) γ β := by
  unfold refTerm
  rw [dot_eq, refAgg_eq, relu_eq, refTail_eq]

end Cert.ReferenceIdeal.RRead

end
-- ==== Proof.RRun.lean ====
/-
  The reference program's run.  Its entry function is one straight line of one hundred array operations once the
  three outlined functions it calls (the clamp at zero, the variance over the nodes, and the select inside it) are
  written out at their call sites over each call's own buffers.  This module lists those operations in order,
  shows the entry function is exactly that line, and reads the run back: every weakly fair execution terminates
  with each buffer holding the fold of the operations' results over the launch contents, and the six argument
  buffers, which no operation writes, hold what they held at launch.  Last, the result buffer's fold is the
  reference's value as one term of the six arguments: the same functions composed in the same data-flow order.
-/
import proofs.«101147_j4887672783235_1_alg».proof.Proof.Gen.ReferenceIdeal
import Idealize.ShloMosaic.Lib.StableHlo.Run
import proofs.«101147_j4887672783235_1_alg».proof.Proof.RRead

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The entry function's one hundred operations, in order: the edge lists and the degree count (1–14), the two
    gathers of the inverse square root and their product (15–33), the matrix product, the gather of rows, the
    weighting and the scatter-add with the bias (34–53), the clamp at zero written out over its call's buffers
    (54–56), the column sums and the mean (57–62), the variance function written out over its call's buffers with
    the select it calls (63–84), and the normalisation, scale and shift (85–100). -/
abbrev ops : List (HloOp τ sig (Elt F)) :=
  [ StableHlo.nullary main_v0 (iotaInDim S100000 32 0),
    StableHlo.unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v1 main_v2 rfl shapeCasts_S1x640000_S640000,
    StableHlo.binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v4 main_v5 rfl shapeCasts_S1x640000_S640000,
    StableHlo.binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.nullary main_cst (constant S_ .f32 0x3F800000#32),
    StableHlo.unary main_cst main_v7 (broadcastInDim S740000 ![] bcast_S_S740000 : (⟨S_, .f32⟩ : BufTy).Contents (Elt F) → (⟨S740000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S740000x1 ![0] bcast_S740000_S740000x1_0 : (⟨S740000, .i32⟩ : BufTy).Contents (Elt F) → (⟨S740000x1, .i32⟩ : BufTy).Contents (Elt F)),
    StableHlo.ternary main_v8 main_v9 main_v7 main_v10 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S740000 ![] bcast_S_S740000 : (⟨S_, .i32⟩ : BufTy).Contents (Elt F) → (⟨S740000, .i32⟩ : BufTy).Contents (Elt F)),
    StableHlo.binary main_v3 main_v12 main_v13 (cmpi .slt : (⟨S740000, .i32⟩ : BufTy).Contents (Elt F) → (⟨S740000, .i32⟩ : BufTy).Contents (Elt F) → (⟨S740000, .i1⟩ : BufTy).Contents (Elt F)),
    StableHlo.nullary main_c_1 (constantI S_ 32 100000#32),
    StableHlo.unary main_c_1 main_v14 (broadcastInDim S740000 ![] bcast_S_S740000 : (⟨S_, .i32⟩ : BufTy).Contents (Elt F) → (⟨S740000, .i32⟩ : BufTy).Contents (Elt F)),
    StableHlo.binary main_v3 main_v14 main_v15 (addi : (⟨S740000, .i32⟩ : BufTy).Contents (Elt F) → (⟨S740000, .i32⟩ : BufTy).Contents (Elt F) → (⟨S740000, .i32⟩ : BufTy).Contents (Elt F)),
    StableHlo.ternary main_v13 main_v15 main_v3 main_v16 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v16 main_v17 (broadcastInDim S740000x1 ![0] bcast_S740000_S740000x1_0 : (⟨S740000, .i32⟩ : BufTy).Contents (Elt F) → (⟨S740000x1, .i32⟩ : BufTy).Contents (Elt F)),
    StableHlo.binary main_v11 main_v17 main_v18 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.nullary main_c_2 (constantI S_ 32 0#32),
    StableHlo.unary main_c_2 main_v19 (broadcastInDim S740000 ![] bcast_S_S740000 : (⟨S_, .i32⟩ : BufTy).Contents (Elt F) → (⟨S740000, .i32⟩ : BufTy).Contents (Elt F)),
    StableHlo.binary main_v6 main_v19 main_v20 (cmpi .slt : (⟨S740000, .i32⟩ : BufTy).Contents (Elt F) → (⟨S740000, .i32⟩ : BufTy).Contents (Elt F) → (⟨S740000, .i1⟩ : BufTy).Contents (Elt F)),
    StableHlo.nullary main_c_3 (constantI S_ 32 100000#32),
    StableHlo.unary main_c_3 main_v21 (broadcastInDim S740000 ![] bcast_S_S740000 : (⟨S_, .i32⟩ : BufTy).Contents (Elt F) → (⟨S740000, .i32⟩ : BufTy).Contents (Elt F)),
    StableHlo.binary main_v6 main_v21 main_v22 (addi : (⟨S740000, .i32⟩ : BufTy).Contents (Elt F) → (⟨S740000, .i32⟩ : BufTy).Contents (Elt F) → (⟨S740000, .i32⟩ : BufTy).Contents (Elt F)),
    StableHlo.ternary main_v20 main_v22 main_v6 main_v23 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v23 main_v24 (broadcastInDim S740000x1 ![0] bcast_S740000_S740000x1_0 : (⟨S740000, .i32⟩ : BufTy).Contents (Elt F) → (⟨S740000x1, .i32⟩ : BufTy).Contents (Elt F)),
    StableHlo.binary main_v11 main_v24 main_v25 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v18 main_v25 main_v26 (mulf : (⟨S740000, .f32⟩ : BufTy).Contents (Elt F) → (⟨S740000, .f32⟩ : BufTy).Contents (Elt F) → (⟨S740000, .f32⟩ : BufTy).Contents (Elt F)),
    StableHlo.binary main_arg0 main_arg2 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_4 (constantI S_ 32 0#32),
    StableHlo.unary main_c_4 main_v28 (broadcastInDim S740000 ![] bcast_S_S740000 : (⟨S_, .i32⟩ : BufTy).Contents (Elt F) → (⟨S740000, .i32⟩ : BufTy).Contents (Elt F)),
    StableHlo.binary main_v3 main_v28 main_v29 (cmpi .slt : (⟨S740000, .i32⟩ : BufTy).Contents (Elt F) → (⟨S740000, .i32⟩ : BufTy).Contents (Elt F) → (⟨S740000, .i1⟩ : BufTy).Contents (Elt F)),
    StableHlo.nullary main_c_5 (constantI S_ 32 100000#32),
    StableHlo.unary main_c_5 main_v30 (broadcastInDim S740000 ![] bcast_S_S740000 : (⟨S_, .i32⟩ : BufTy).Contents (Elt F) → (⟨S740000, .i32⟩ : BufTy).Contents (Elt F)),
    StableHlo.binary main_v3 main_v30 main_v31 (addi : (⟨S740000, .i32⟩ : BufTy).Contents (Elt F) → (⟨S740000, .i32⟩ : BufTy).Contents (Elt F) → (⟨S740000, .i32⟩ : BufTy).Contents (Elt F)),
    StableHlo.ternary main_v29 main_v31 main_v3 main_v32 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v32 main_v33 (broadcastInDim S740000x1 ![0] bcast_S740000_S740000x1_0 : (⟨S740000, .i32⟩ : BufTy).Contents (Elt F) → (⟨S740000x1, .i32⟩ : BufTy).Contents (Elt F)),
    StableHlo.binary main_v27 main_v33 main_v34 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v26 main_v35 (broadcastInDim S740000x1 ![0] bcast_S740000_S740000x1_0 : (⟨S740000, .f32⟩ : BufTy).Contents (Elt F) → (⟨S740000x1, .f32⟩ : BufTy).Contents (Elt F)),
    StableHlo.unary main_v35 main_v36 (broadcastInDim S740000x128 ![0, 1] bcast_S740000x1_S740000x128_0_1 : (⟨S740000x1, .f32⟩ : BufTy).Contents (Elt F) → (⟨S740000x128, .f32⟩ : BufTy).Contents (Elt F)),
    StableHlo.binary main_v34 main_v36 main_v37 (mulf : (⟨S740000x128, .f32⟩ : BufTy).Contents (Elt F) → (⟨S740000x128, .f32⟩ : BufTy).Contents (Elt F) → (⟨S740000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v6 main_v39 (broadcastInDim S740000x1 ![0] bcast_S740000_S740000x1_0 : (⟨S740000, .i32⟩ : BufTy).Contents (Elt F) → (⟨S740000x1, .i32⟩ : BufTy).Contents (Elt F)),
    StableHlo.ternary main_v38 main_v39 main_v37 main_v40 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v43) main_call0.v0 main_call0.v1 maximumf,
    StableHlo.nullary main_cst_7 (constant S_ .f32 0x00000000#32),
    StableHlo.binary main_v44 main_cst_7 main_v45 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v46 (broadcastInDim S128 ![] bcast_S_S128 : (⟨S_, .f32⟩ : BufTy).Contents (Elt F) → (⟨S128, .f32⟩ : BufTy).Contents (Elt F)),
    StableHlo.binary main_v45 main_v46 main_v47 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call1.cst (constant S_ .f32 0x00000000#32),
    StableHlo.TRef.binary (.of main_v44) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v44) main_call1.v4 main_call1.v5 subf,
    StableHlo.TRef.binary main_call1.v5 main_call1.v5 main_call1.v6 mulf,
    StableHlo.TRef.unary (.of main_c_9) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v47 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v50 main_v51 (subf : (⟨S100000x128, .f32⟩ : BufTy).Contents (Elt F) → (⟨S100000x128, .f32⟩ : BufTy).Contents (Elt F) → (⟨S100000x128, .f32⟩ : BufTy).Contents (Elt F)),
    StableHlo.unary main_arg4 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v51 main_v54 (mulf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v55 (broadcastInDim S128 ![] bcast_S_S128 : (⟨S_, .f32⟩ : BufTy).Contents (Elt F) → (⟨S128, .f32⟩ : BufTy).Contents (Elt F)),
    StableHlo.binary main_v48 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg5 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)) ]

set_option maxRecDepth 4096 in
set_option maxHeartbeats 4000000 in
/-- The entry function is that straight line: the two windows and the three called functions unfolded at their
    calls, both sides are one chain of steps once sequencing is reassociated. -/
theorem main_eq (c : Dev nD) : main (F := F) c = seq ops := by
  simp only [main, main_part0, main_part1, fn_relu.body, fn_var.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub ..⟩

set_option maxRecDepth 8192 in
set_option maxHeartbeats 4000000 in
/-- At the compiled mesh, for any float values, from any memory with zero counters: every weakly fair execution of
    the entry function terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 4096 in
set_option maxHeartbeats 4000000 in
/-- No operation writes argument 0's buffer: after the line it holds what it held before. -/
theorem arg0_eq (V : Valuation τ sig (Elt F)) :
    after ops V (main_arg0 : DevRef τ sig) = V (main_arg0 : DevRef τ sig) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 4096 in
set_option maxHeartbeats 4000000 in
/-- No operation writes argument 1's buffer: after the line it holds what it held before. -/
theorem arg1_eq (V : Valuation τ sig (Elt F)) :
    after ops V (main_arg1 : DevRef τ sig) = V (main_arg1 : DevRef τ sig) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 4096 in
set_option maxHeartbeats 4000000 in
/-- No operation writes argument 2's buffer: after the line it holds what it held before. -/
theorem arg2_eq (V : Valuation τ sig (Elt F)) :
    after ops V (main_arg2 : DevRef τ sig) = V (main_arg2 : DevRef τ sig) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 4096 in
set_option maxHeartbeats 4000000 in
/-- No operation writes argument 3's buffer: after the line it holds what it held before. -/
theorem arg3_eq (V : Valuation τ sig (Elt F)) :
    after ops V (main_arg3 : DevRef τ sig) = V (main_arg3 : DevRef τ sig) :=
  after_of_forall_not_mem (b := Proc.devRef .tc main_arg3) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 4096 in
set_option maxHeartbeats 4000000 in
/-- No operation writes argument 4's buffer: after the line it holds what it held before. -/
theorem arg4_eq (V : Valuation τ sig (Elt F)) :
    after ops V (main_arg4 : DevRef τ sig) = V (main_arg4 : DevRef τ sig) :=
  after_of_forall_not_mem (b := Proc.devRef .tc main_arg4) _ _ (List.forall_iff_forall_mem.mp (by
    simp only [ops, List.Forall, nullary_writes, unary_writes, binary_writes, ternary_writes, reshape_writes, Finset.mem_singleton]
    repeat' apply And.intro
    all_goals exact devRef_ne_of_ne (by decide)))

set_option maxRecDepth 4096 in
set_option maxHeartbeats 4000000 in
/-- No operation writes argument 5's buffer: after the line it holds what it held before. -/
theorem arg5_eq (V : Valuation τ sig (Elt F)) :
    after ops V (main_arg5 : DevRef τ sig) = V (main_arg5 : DevRef τ sig) :=
  after_of_forall_not_mem (b := Proc.devRef .tc main_arg5) _ _ (List.forall_iff_forall_mem.mp (by
    simp only [ops, List.Forall, nullary_writes, unary_writes, binary_writes, ternary_writes, reshape_writes, Finset.mem_singleton]
    repeat' apply And.intro
    all_goals exact devRef_ne_of_ne (by decide)))

attribute [local irreducible] Host.gather Host.rsqrt Host.divf concatenate extractStridedSlice shapeCast broadcastInDim iotaInDim select cmpi cmpf addi mulf addf subf maximumf sitofp constant constantI in
set_option maxRecDepth 16384 in
set_option maxHeartbeats 8000000 in
/-- After the line the result buffer holds the reference's value as one term of the six arguments.  Each
    operation's result read at its own buffer is its function of its operands' contents, and at any other buffer
    what was there before; the typed references' transports are the identity at literal references; what is left
    on both sides is the same composition of the same functions, whose bodies are kept folded and never opened. -/
theorem out_eq (V : Valuation τ sig (Elt F)) :
    after ops V (main_v63 : DevRef τ sig)
      = Cert.ReferenceIdeal.RRead.refTerm (V (main_arg0 : DevRef τ sig)) (V (main_arg1 : DevRef τ sig))
          (V (main_arg2 : DevRef τ sig)) (V (main_arg3 : DevRef τ sig)) (V (main_arg4 : DevRef τ sig))
          (V (main_arg5 : DevRef τ sig)) := by
  after_results_simp
  <;> (try simp only [TRef.ofBuf, TRef.toBuf, cast_eq])
  <;> rfl

end Cert.ReferenceIdeal.RRun

end
-- ==== Proof.RVal.lean ====
/-
  The idealized reference program's run, with its result read as the specification's function of its arguments:
  the normalisation with the variance as the mean of the squared deviations, of the clamped aggregation of the
  transformed features.
-/
import proofs.«101147_j4887672783235_1_alg».proof.Proof.RRun
import proofs.«101147_j4887672783235_1_alg».proof.Proof.RRead
import proofs.«101147_j4887672783235_1_alg».proof.Proof.Spec

noncomputable section

namespace Cert.ReferenceIdeal.RVal

open Idealize.ShloMosaic Idealize.ShloMosaic.TcCoe Idealize.SL.Sem Idealize.ShloMosaic.StableHlo
open Cert.ReferenceIdeal Cert.ReferenceIdeal.Gen

/-- Every weakly fair execution terminates without a fault; the result buffer ends at the specification's
    second form of the block's function of the launch contents of the six arguments, which end as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63)
        = Cert.Spec.outR (Cert.Spec.relu (Cert.Spec.aggF (F := Ideal)
            (Cert.Spec.hmm (m ((c.tc : Thread nD τ).loc main_arg0)) (m ((c.tc : Thread nD τ).loc main_arg2)))
            (m ((c.tc : Thread nD τ).loc main_arg1)) (m ((c.tc : Thread nD τ).loc main_arg3))))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v63).trans ((RRun.out_eq (launchContents m c)).trans (RRead.refTerm_eq _ _ _ _ _ _)),
     (h c main_arg0).trans (RRun.arg0_eq (launchContents m c)),
     (h c main_arg1).trans (RRun.arg1_eq (launchContents m c)),
     (h c main_arg2).trans (RRun.arg2_eq (launchContents m c)),
     (h c main_arg3).trans (RRun.arg3_eq (launchContents m c)),
     (h c main_arg4).trans (RRun.arg4_eq (launchContents m c)),
     (h c main_arg5).trans (RRun.arg5_eq (launchContents m c))⟩)
    (RRun.run_main m ρ)

end Cert.ReferenceIdeal.RVal

end
-- ==== Proof.lean ====
/-
  A graph-convolution block on 100000 nodes with 128 features: the kernel program and the reference compute
  one function of their six arguments over the extended reals.

  Both multiply the node features by the weight matrix, aggregate along the edges (640000 given ones and one
  self-loop per node) with the symmetric degree weights, add the bias, clamp at zero, and normalise every feature
  column by its mean and variance over the nodes before the scale and shift.  The kernel program does the product,
  the clamp with the column statistics, and the normalisation in three tiled kernel regions over blocks of 5000
  rows, the aggregation between them by the same host operations as the reference.  Its column variance is the
  mean of the squares minus the square of the mean; the reference's is the mean of the squared deviations.  These
  agree on finite entries, and the entries are finite: the inputs are, and the only inverse square root taken of a
  possibly-zero quantity is that of a node's degree, which counts the node's self-loop and so is at least one.

  The frames of the two kernel programs are the generated ones; the reference's is its run with the result
  dropped; the ideal pass rewrote nothing.
-/
import proofs.«101147_j4887672783235_1_alg».proof.Defs
import proofs.«101147_j4887672783235_1_alg».proof.Proof.Gen.Kernel
import proofs.«101147_j4887672783235_1_alg».proof.Proof.Gen.Kernel.Frame
import proofs.«101147_j4887672783235_1_alg».proof.Proof.Gen.KernelIdeal
import proofs.«101147_j4887672783235_1_alg».proof.Proof.Gen.KernelIdeal.Frame
import proofs.«101147_j4887672783235_1_alg».proof.Proof.Gen.ReferenceIdeal
import proofs.«101147_j4887672783235_1_alg».proof.Proof.Gen.Pre_finite_inputs
import proofs.«101147_j4887672783235_1_alg».proof.Proof.Spec
import proofs.«101147_j4887672783235_1_alg».proof.Proof.MathVar
import proofs.«101147_j4887672783235_1_alg».proof.Proof.AggFin
import proofs.«101147_j4887672783235_1_alg».proof.Proof.PreFin
import proofs.«101147_j4887672783235_1_alg».proof.Proof.KRun
import proofs.«101147_j4887672783235_1_alg».proof.Proof.KVal
import proofs.«101147_j4887672783235_1_alg».proof.Proof.RVal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RVal.run m ρ)

/-- From memories agreeing on the arguments both programs end with the specification's function of the kernel
    program's arguments in their result buffers: the kernel program by its run read stretch by stretch, the reference by
    its run, the agreement, and the equality of the two forms of the variance on the finite clamped aggregation. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G (Cert.KernelIdeal.KVal.aX m c) (Cert.KernelIdeal.KVal.aE m c) (Cert.KernelIdeal.KVal.aW m c)
      (Cert.KernelIdeal.KVal.aB m c) (Cert.KernelIdeal.KVal.aG m c) (Cert.KernelIdeal.KVal.aS m c), ?_, ?_⟩
  · exact (θ_run Cert.KernelIdeal.defs _ _).mono
      (fun _ h c => ⟨(h c).1.trans (Cert.KernelIdeal.KVal.result m ρ c), (h c).2⟩) (Cert.KernelIdeal.KRun.run m ρ)
  · refine (θ_run Cert.ReferenceIdeal.defs _ _).mono (fun _ h c => ⟨(h c).1.trans ?_, (h c).2⟩)
      (Cert.ReferenceIdeal.RVal.run m' ρ')
    obtain ⟨hx, hW, hb⟩ := Cert.PreFin.fin_of_pre m hpre c
    rw [(hagree c).1, (hagree c).2.1, (hagree c).2.2.1, (hagree c).2.2.2.1, (hagree c).2.2.2.2.1, (hagree c).2.2.2.2.2]
    exact Cert.Spec.outR_eq_outK _ _ _
      (Cert.Spec.relu_fin _ (Cert.Spec.aggF_fin _ _ _ (Cert.Spec.hmm_fin _ _ hx hW) hb))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
